-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S1000000x64 : Shape := ⟨2, ![1000000, 64]⟩
abbrev S192x64 : Shape := ⟨2, ![192, 64]⟩
abbrev S64 : Shape := ⟨1, ![64]⟩
abbrev S64x64 : Shape := ⟨2, ![64, 64]⟩
abbrev S_ : Shape := ⟨0, ![]⟩
abbrev S1x1000000 : Shape := ⟨2, ![1, 1000000]⟩
abbrev S1000000 : Shape := ⟨1, ![1000000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  reducesTo_S1000000_S_d0 : S1000000.ReducesTo [0] S_

variable [Facts]

def fn_part4 {F : FTy → Type} [FloatOps F] (main_arg1 : IVec S2x1000000 32) (main_v63 : IVec S_ 1) (main_v67 : IVec S_ 1) : IVec S_ 1 :=
  let main_v68 : IVec S_ 1 := andi main_v63 main_v67
  let main_v69 : IVec S1x1000000 32 := (extractStridedSlice S1x1000000 ![0, 0] · slices_S2x1000000_S1x1000000_0_0) main_arg1
  let main_v70 : IVec S1000000 32 := shapeCast S1000000 main_v69 shapeCasts_S1x1000000_S1000000
  let main_c_26 : IVec S_ 32 := constantI S_ 32 0#32
  let main_v71 : IVec S1000000 32 := broadcastInDim S1000000 ![] bcast_S_S1000000 main_c_26
  let main_v72 : IVec S1000000 1 := cmpi .sge main_v70 main_v71
  let main_c_27 : IVec S_ 1 := constantI S_ 1 1#1
  let main_v73 : IVec S_ 1 := (fun x v => Host.reduce IntOp.andi x v reducesTo_S1000000_S_d0 h_S_) main_v72 main_c_27
  let main_v74 : IVec S_ 1 := andi main_v68 main_v73
  let main_v75 : IVec S1x1000000 32 := (extractStridedSlice S1x1000000 ![0, 0] · slices_S2x1000000_S1x1000000_0_0) main_arg1
  let main_v76 : IVec S1000000 32 := shapeCast S1000000 main_v75 shapeCasts_S1x1000000_S1000000
  let main_c_28 : IVec S_ 32 := constantI S_ 32 100000#32
  let main_v77 : IVec S1000000 32 := broadcastInDim S1000000 ![] bcast_S_S1000000 main_c_28
  let main_v78 : IVec S1000000 1 := cmpi .slt main_v76 main_v77
  let main_c_29 : IVec S_ 1 := constantI S_ 1 1#1
  let main_v79 : IVec S_ 1 := (fun x v => Host.reduce IntOp.andi x v reducesTo_S1000000_S_d0 h_S_) main_v78 main_c_29
  let main_v80 : IVec S_ 1 := andi main_v74 main_v79
  main_v80

def fn_part3 {F : FTy → Type} [FloatOps F] (main_arg1 : IVec S2x1000000 32) (main_arg12 : FVec F S64 .f32) (main_arg13 : FVec F S64x64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg1 main_v63 main_v67

def fn_part2 {F : FTy → Type} [FloatOps F] (main_arg1 : IVec S2x1000000 32) (main_arg8 : FVec F S64 .f32) (main_arg9 : FVec F S192x64 .f32) (main_arg10 : FVec F S64 .f32) (main_arg11 : FVec F S64 .f32) (main_arg12 : FVec F S64 .f32) (main_arg13 : FVec F S64x64 .f32) (main_arg14 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S192x64 .f32 := Host.absf main_arg9
  let main_cst_14 : FVec F S_ .f32 := constant S_ .f32 0x7F800000#32
  let main_v40 : FVec F S192x64 .f32 := broadcastInDim S192x64 ![] bcast_S_S192x64 main_cst_14
  let main_v41 : IVec S192x64 1 := cmpf .olt main_v39 main_v40
  let main_c_15 : IVec S_ 1 := constantI S_ 1 1#1
  let main_v42 : IVec S_ 1 := (fun x v => Host.reduce IntOp.andi x v reducesTo_S192x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_arg12 main_arg13 main_arg14 main_v48 main_v49 main_v50

def fn_part1 {F : FTy → Type} [FloatOps F] (main_arg1 : IVec S2x1000000 32) (main_arg5 : FVec F S64 .f32) (main_arg6 : FVec F S64 .f32) (main_arg7 : FVec F S64x64 .f32) (main_arg8 : FVec F S64 .f32) (main_arg9 : FVec F S192x64 .f32) (main_arg10 : FVec F S64 .f32) (main_arg11 : FVec F S64 .f32) (main_arg12 : FVec F S64 .f32) (main_arg13 : FVec F S64x64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S100000x128 .f32) (main_arg1 : IVec S2x1000000 32) (main_arg2 : FVec F S1000000x64 .f32) (main_arg3 : FVec F S192x64 .f32) (main_arg4 : FVec F S64 .f32) (main_arg5 : FVec F S64 .f32) (main_arg6 : FVec F S64 .f32) (main_arg7 : FVec F S64x64 .f32) (main_arg8 : FVec F S64 .f32) (main_arg9 : FVec F S192x64 .f32) (main_arg10 : FVec F S64 .f32) (main_arg11 : FVec F S64 .f32) (main_arg12 : FVec F S64 .f32) (main_arg13 : FVec F S64x64 .f32) (main_arg14 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000000x64 .f32 := Host.absf main_arg2
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S192x64 .f32 := Host.absf main_arg3
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S100000x128 : Shape := ⟨2, ![100000, 128]⟩
abbrev S2x1000000 : Shape := ⟨2, ![2, 1000000]⟩
abbrev S1000000x64 : Shape := ⟨2, ![1000000, 64]⟩
abbrev S192x64 : Shape := ⟨2, ![192, 64]⟩
abbrev S64 : Shape := ⟨1, ![64]⟩
abbrev S64x64 : Shape := ⟨2, ![64, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x128 : Shape := ⟨2, ![1000000, 128]⟩
abbrev S1x64 : Shape := ⟨2, ![1, 64]⟩
abbrev S4000x128 : Shape := ⟨2, ![4000, 128]⟩
abbrev S4000x64 : Shape := ⟨2, ![4000, 64]⟩
abbrev S4000x192 : Shape := ⟨2, ![4000, 192]⟩
abbrev S4000 : Shape := ⟨1, ![4000]⟩
abbrev S4000x1 : Shape := ⟨2, ![4000, 1]⟩
abbrev S100000x64 : Shape := ⟨2, ![100000, 64]⟩
abbrev S100000 : Shape := ⟨1, ![100000]⟩
abbrev S100000x1 : Shape := ⟨2, ![100000, 1]⟩

abbrev nBuf : Space → Nat
  | .hbm => 68
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S1000000x64, .f32⟩
  | .hbm, ⟨3, _⟩ => ⟨S192x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S192x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S1x1000000, .i32⟩
  | .hbm, ⟨16, _⟩ => ⟨S1000000, .i32⟩
  | .hbm, ⟨17, _⟩ => ⟨S1x1000000, .i32⟩
  | .hbm, ⟨18, _⟩ => ⟨S1000000, .i32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1, .i32⟩
  | .hbm, ⟨28, _⟩ => ⟨S_, .i32⟩
  | .hbm, ⟨29, _⟩ => ⟨S1000000x1, .i32⟩
  | .hbm, ⟨30, _⟩ => ⟨S1000000x1, .i1⟩
  | .hbm, ⟨31, _⟩ => ⟨S1x1, .i32⟩
  | .hbm, ⟨32, _⟩ => ⟨S1000000x1, .i32⟩
  | .hbm, ⟨33, _⟩ => ⟨S1000000x1, .i1⟩
  | .hbm, ⟨34, _⟩ => ⟨S1000000x1, .i1⟩
  | .hbm, ⟨35, _⟩ => ⟨S_, .i1⟩
  | .hbm, ⟨36, _⟩ => ⟨S1000000, .i1⟩
  | .hbm, ⟨37, _⟩ => ⟨S1000000x128, .f32⟩
  | .hbm, ⟨38, _⟩ => ⟨S1000000x128, .i1⟩
  | .hbm, ⟨39, _⟩ => ⟨S_, .f32⟩
  | .hbm, ⟨40, _⟩ => ⟨S1000000x128, .f32⟩
  | .hbm, ⟨41, _⟩ => ⟨S1000000x128, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S1000000x64, .f32⟩
  | .hbm, ⟨47, _⟩ => ⟨S_, .f32⟩
  | .hbm, ⟨48, _⟩ => ⟨S100000x64, .f32⟩
  | .hbm, ⟨49, _⟩ => ⟨S1000000x1, .i32⟩
  | .hbm, ⟨50, _⟩ => ⟨S100000x64, .f32⟩
  | .hbm, ⟨51, _⟩ => ⟨S_, .f32⟩
  | .hbm, ⟨52, _⟩ => ⟨S1000000, .f32⟩
  | .hbm, ⟨53, _⟩ => ⟨S_, .f32⟩
  | .hbm, ⟨54, _⟩ => ⟨S100000, .f32⟩
  | .hbm, ⟨55, _⟩ => ⟨S1000000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x64, .f32⟩
  | .hbm, ⟨62, _⟩ => ⟨S100000x64, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S1x64, .f32⟩
  | .hbm, ⟨67, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x64, .f32⟩
  | .local _ .vmem, ⟨3, _⟩ => ⟨S4000x64, .f32⟩
  | .local _ .vmem, ⟨4, _⟩ => ⟨S192x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S4000x64, .f32⟩
  | .local _ .vmem, ⟨11, _⟩ => ⟨S4000x64, .f32⟩
  | .local _ .vmem, ⟨12, _⟩ => ⟨S4000x128, .f32⟩
  | .local _ .vmem, ⟨13, _⟩ => ⟨S4000x128, .f32⟩
  | .local _ .vmem, ⟨14, _⟩ => ⟨S4000x64, .f32⟩
  | .local _ .vmem, ⟨15, _⟩ => ⟨S4000x64, .f32⟩
  | .local _ .vmem, ⟨16, _⟩ => ⟨S192x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S4000x64, .f32⟩
  | .local _ .vmem, ⟨23, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_cst : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_cst_0 : Ref sig .tc := ⟨.hbm, 51, rfl⟩
abbrev main_v13 : Ref sig .tc := ⟨.hbm, 52, rfl⟩
abbrev main_cst_1 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_2 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S192x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  shapeCasts_S64_S1x64 : S64.ShapeCasts S1x64
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x64_S4000x64_0_0 : ∀ a, (![0, 0] : Fin 2 → Nat) a + S4000x64.size a ≤ S4000x64.size a
  h_S4000x64 : 0 < S4000x64.numel
  concatenates_S4000x128_S4000x64_S4000x192_d1 : Shape.Concatenates [S4000x128, S4000x64] S4000x192 1
  bitsLt_bf16_f32 : FTy.bits .bf16 < FTy.bits .f32
  inb_S192x64_S192x64_0_0 : ∀ a, (![0, 0] : Fin 2 → Nat) a + S192x64.size a ≤ S192x64.size a
  h_S192x64 : 0 < S192x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S4000 : S4000x64.Reduces [1] S4000
  shapeCasts_S4000_S4000x1 : S4000.ShapeCasts S4000x1
  broadcasts_S4000x1_S4000x64 : S4000x1.Broadcasts S4000x64
  inb_S64x64_S64x64_0_0 : ∀ a, (![0, 0] : Fin 2 → Nat) a + S64x64.size a ≤ S64x64.size a
  h_S64x64 : 0 < S64x64.numel
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S4000x64_S4000x64 : S4000x64.ShapeCasts S4000x64
  gather_S100000x128_S1000000x1_S1000000x128_1_0_n_n_0_1_1128_wf : GatherDims.WF S100000x128 S1000000x1 S1000000x128 [1] [0] [] [0] [] 1 ![1, 128]
  dot_S4000x192_S192x64_S4000x64_1_0_0_1_n_n_wf : DotDims.WF S4000x192 S192x64 S4000x64 [1] [0] [0] [1] [] []
  dot_S4000x64_S64x64_S4000x64_1_0_0_1_n_n_wf : DotDims.WF S4000x64 S64x64 S4000x64 [1] [0] [0] [1] [] []
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S1000000x128.size a
  hwx0_0 : ∀ i : grid0.Coords, EltTy.bits .f32 = 32 ∨ (Rect.block (s := S1000000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S1000000x64.size a
  hwx0_1 : ∀ i : grid0.Coords, EltTy.bits .f32 = 32 ∨ (Rect.block (s := S1000000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x64.size a ≤ S192x64.size a
  hwx0_2 : ∀ i : grid0.Coords, EltTy.bits .f32 = 32 ∨ (Rect.block (s := S192x64) S192x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x64.size a ≤ S1000000x64.size a
  hwx0_8 : ∀ i : grid0.Coords, EltTy.bits .f32 = 32 ∨ (Rect.block (s := S1000000x64) S4000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S192x64.size a ≤ S192x64.size a
  hwx1_2 : ∀ i : grid1.Coords, EltTy.bits .f32 = 32 ∨ (Rect.block (s := S192x64) S192x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x64.size a ≤ S100000x64.size a
  hwx1_8 : ∀ i : grid1.Coords, EltTy.bits .f32 = 32 ∨ (Rect.block (s := S100000x64) S4000x64.size (cc1_transform_8 i) (hinb1_8 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S4000x192_S192x64_S4000x64_1_0_0_1_n_n : DotDims S4000x192 S192x64 S4000x64 where
  lhsContracting := [1]
  rhsContracting := [0]
  lhsNonContracting := [0]
  rhsNonContracting := [1]
  lhsBatch := []
  rhsBatch := []
  wf := dot_S4000x192_S192x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S192x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S4000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S192x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v26) S4000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S1000000x64 : Shape := ⟨2, ![1000000, 64]⟩
abbrev S192x64 : Shape := ⟨2, ![192, 64]⟩
abbrev S64 : Shape := ⟨1, ![64]⟩
abbrev S64x64 : Shape := ⟨2, ![64, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x192 : Shape := ⟨2, ![1000000, 192]⟩
abbrev S1x64 : Shape := ⟨2, ![1, 64]⟩
abbrev S100000x64 : Shape := ⟨2, ![100000, 64]⟩
abbrev S100000 : Shape := ⟨1, ![100000]⟩
abbrev S100000x1 : Shape := ⟨2, ![100000, 1]⟩
abbrev S100000x192 : Shape := ⟨2, ![100000, 192]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S2x1000000, .i32⟩
  | 2 => ⟨S1000000x64, .f32⟩
  | 3 => ⟨S192x64, .f32⟩
  | 4 => ⟨S64, .f32⟩
  | 5 => ⟨S64, .f32⟩
  | 6 => ⟨S64, .f32⟩
  | 7 => ⟨S64x64, .f32⟩
  | 8 => ⟨S64, .f32⟩
  | 9 => ⟨S192x64, .f32⟩
  | 10 => ⟨S64, .f32⟩
  | 11 => ⟨S64, .f32⟩
  | 12 => ⟨S64, .f32⟩
  | 13 => ⟨S64x64, .f32⟩
  | 14 => ⟨S64, .f32⟩
  | 15 => ⟨S1x1000000, .i32⟩
  | 16 => ⟨S1000000, .i32⟩
  | 17 => ⟨S1x1000000, .i32⟩
  | 18 => ⟨S1000000, .i32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000x128, .f32⟩
  | 28 => ⟨S1000000x192, .f32⟩
  | 29 => ⟨S1000000x64, .f32⟩
  | 30 => ⟨S1x64, .f32⟩
  | 31 => ⟨S1000000x64, .f32⟩
  | 32 => ⟨S1000000x64, .f32⟩
  | 33 => ⟨S_, .f32⟩
  | 34 => ⟨S1000000x64, .f32⟩
  | 35 => ⟨S1000000x64, .i1⟩
  | 36 => ⟨S_, .f32⟩
  | 37 => ⟨S1000000x64, .f32⟩
  | 38 => ⟨S1000000x64, .f32⟩
  | 39 => ⟨S1000000x64, .f32⟩
  | 40 => ⟨S_, .f32⟩
  | 41 => ⟨S1000000, .f32⟩
  | 42 => ⟨S1000000x1, .f32⟩
  | 43 => ⟨S_, .f32⟩
  | 44 => ⟨S1000000x1, .f32⟩
  | 45 => ⟨S1000000x1, .f32⟩
  | 46 => ⟨S1000000x64, .f32⟩
  | 47 => ⟨S1000000x64, .f32⟩
  | 48 => ⟨S1000000x64, .f32⟩
  | 49 => ⟨S_, .f32⟩
  | 50 => ⟨S1000000, .f32⟩
  | 51 => ⟨S1000000x1, .f32⟩
  | 52 => ⟨S_, .f32⟩
  | 53 => ⟨S1000000x1, .f32⟩
  | 54 => ⟨S1000000x1, .f32⟩
  | 55 => ⟨S1000000x64, .f32⟩
  | 56 => ⟨S1000000x64, .f32⟩
  | 57 => ⟨S_, .f32⟩
  | 58 => ⟨S1000000x1, .f32⟩
  | 59 => ⟨S1000000x1, .f32⟩
  | 60 => ⟨S1000000x1, .f32⟩
  | 61 => ⟨S1000000x64, .f32⟩
  | 62 => ⟨S1000000x64, .f32⟩
  | 63 => ⟨S1x64, .f32⟩
  | 64 => ⟨S1000000x64, .f32⟩
  | 65 => ⟨S1000000x64, .f32⟩
  | 66 => ⟨S1x64, .f32⟩
  | 67 => ⟨S1000000x64, .f32⟩
  | 68 => ⟨S1000000x64, .f32⟩
  | 69 => ⟨S1000000x64, .f32⟩
  | 70 => ⟨S1x64, .f32⟩
  | 71 => ⟨S1000000x64, .f32⟩
  | 72 => ⟨S1000000x64, .f32⟩
  | 73 => ⟨S_, .f32⟩
  | 74 => ⟨S100000x64, .f32⟩
  | 75 => ⟨S1000000x1, .i32⟩
  | 76 => ⟨S100000x64, .f32⟩
  | 77 => ⟨S_, .f32⟩
  | 78 => ⟨S1000000, .f32⟩
  | 79 => ⟨S_, .f32⟩
  | 80 => ⟨S100000, .f32⟩
  | 81 => ⟨S1000000x1, .i32⟩
  | 82 => ⟨S100000, .f32⟩
  | 83 => ⟨S_, .f32⟩
  | 84 => ⟨S100000, .f32⟩
  | 85 => ⟨S100000, .f32⟩
  | 86 => ⟨S100000x1, .f32⟩
  | 87 => ⟨S100000x64, .f32⟩
  | 88 => ⟨S100000x64, .f32⟩
  | 89 => ⟨S100000x192, .f32⟩
  | 90 => ⟨S100000x64, .f32⟩
  | 91 => ⟨S1x64, .f32⟩
  | 92 => ⟨S100000x64, .f32⟩
  | 93 => ⟨S100000x64, .f32⟩
  | 94 => ⟨S_, .f32⟩
  | 95 => ⟨S100000x64, .f32⟩
  | 96 => ⟨S100000x64, .i1⟩
  | 97 => ⟨S_, .f32⟩
  | 98 => ⟨S100000x64, .f32⟩
  | 99 => ⟨S100000x64, .f32⟩
  | 100 => ⟨S100000x64, .f32⟩
  | 101 => ⟨S_, .f32⟩
  | 102 => ⟨S100000, .f32⟩
  | 103 => ⟨S100000x1, .f32⟩
  | 104 => ⟨S_, .f32⟩
  | 105 => ⟨S100000x1, .f32⟩
  | 106 => ⟨S100000x1, .f32⟩
  | 107 => ⟨S100000x64, .f32⟩
  | 108 => ⟨S100000x64, .f32⟩
  | 109 => ⟨S100000x64, .f32⟩
  | 110 => ⟨S_, .f32⟩
  | 111 => ⟨S100000, .f32⟩
  | 112 => ⟨S100000x1, .f32⟩
  | 113 => ⟨S_, .f32⟩
  | 114 => ⟨S100000x1, .f32⟩
  | 115 => ⟨S100000x1, .f32⟩
  | 116 => ⟨S100000x64, .f32⟩
  | 117 => ⟨S100000x64, .f32⟩
  | 118 => ⟨S_, .f32⟩
  | 119 => ⟨S100000x1, .f32⟩
  | 120 => ⟨S100000x1, .f32⟩
  | 121 => ⟨S100000x1, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S1x64, .f32⟩
  | _ => ⟨S100000x128, .f32⟩

abbrev hbmTy0_1 (i : Nat) : BufTy := match i % 128 with
  | 0 => ⟨S100000x64, .f32⟩
  | 1 => ⟨S100000x64, .f32⟩
  | 2 => ⟨S100000x64, .f32⟩
  | 3 => ⟨S1x64, .f32⟩
  | 4 => ⟨S100000x64, .f32⟩
  | 5 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_7 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_8 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_11 : Ref sig .tc := ⟨.hbm, 94, rfl⟩
abbrev main_v66 : Ref sig .tc := ⟨.hbm, 95, rfl⟩
abbrev main_v67 : Ref sig .tc := ⟨.hbm, 96, rfl⟩
abbrev main_cst_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_13 : Ref sig .tc := ⟨.hbm, 101, rfl⟩
abbrev main_v71 : Ref sig .tc := ⟨.hbm, 102, rfl⟩
abbrev main_v72 : Ref sig .tc := ⟨.hbm, 103, rfl⟩
abbrev main_cst_14 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_15 : Ref sig .tc := ⟨.hbm, 110, rfl⟩
abbrev main_v78 : Ref sig .tc := ⟨.hbm, 111, rfl⟩
abbrev main_v79 : Ref sig .tc := ⟨.hbm, 112, rfl⟩
abbrev main_cst_16 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_17 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x64_S1000000x192_d1 : Shape.Concatenates [S1000000x128, S1000000x64] S1000000x192 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  reducesTo_S1000000x64_S1000000_d1 : S1000000x64.ReducesTo [1] S1000000
  h_S_ : 0 < S_.numel
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x128_S100000x64_S100000x192_d1 : Shape.Concatenates [S100000x128, S100000x64] S100000x192 1
  bcast_S1x64_S100000x64_0_1 : S1x64.BroadcastsInDim S100000x64 (![0, 1] : Fin 2 → Fin S100000x64.rank)
  reducesTo_S100000x64_S100000_d1 : S100000x64.ReducesTo [1] S100000
  bcast_S_S100000x1 : S_.BroadcastsInDim S100000x1 (![] : Fin 0 → Fin S100000x1.rank)
  gather_S100000x128_S1000000x1_S1000000x128_1_0_n_n_0_1_1128_wf : GatherDims.WF S100000x128 S1000000x1 S1000000x128 [1] [0] [] [0] [] 1 ![1, 128]
  dot_S1000000x192_S192x64_S1000000x64_1_0_0_1_n_n_wf : DotDims.WF S1000000x192 S192x64 S1000000x64 [1] [0] [0] [1] [] []
  dot_S1000000x64_S64x64_S1000000x64_1_0_0_1_n_n_wf : DotDims.WF S1000000x64 S64x64 S1000000x64 [1] [0] [0] [1] [] []
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x192_S192x64_S100000x64_1_0_0_1_n_n_wf : DotDims.WF S100000x192 S192x64 S100000x64 [1] [0] [0] [1] [] []
  dot_S100000x64_S64x64_S100000x64_1_0_0_1_n_n_wf : DotDims.WF S100000x64 S64x64 S100000x64 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S1000000x192_S192x64_S1000000x64_1_0_0_1_n_n : DotDims S1000000x192 S192x64 S1000000x64 where
  lhsContracting := [1]
  rhsContracting := [0]
  lhsNonContracting := [0]
  rhsNonContracting := [1]
  lhsBatch := []
  rhsBatch := []
  wf := dot_S1000000x192_S192x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  One row of the two-layer perceptron both programs apply, over the extended reals.

  A row of 128 node features is joined with a row of 64 edge (or aggregate) features into 192 entries; the first
  layer is the 192 → 64 product with `W` plus the bias `b1`; the activation keeps a non-negative entry and scales
  a negative one by the slope literal; the row is then normalised (its mean subtracted, divided by the root of
  its variance plus the epsilon literal, scaled by `g` and shifted by `be`); the second layer is the 64 → 64
  product with `W'` plus the bias `b'`. Every literal is kept as the float word both programs print.
-/
import Idealize.ShloMosaic.PureOps.Ideal
import Idealize.ShloMosaic.PureOps.Ideal.Laws
import Idealize.ShloMosaic.Lib.ValueIdx

noncomputable section

namespace Cert.Spec

open Idealize.ShloMosaic

/-- The 128 node features followed by the 64 edge features. -/
def cat (a : Fin 128 → EReal) (b : Fin 64 → EReal) (k : Fin 192) : EReal :=
  if h : k.val < 128 then a ⟨k.val, h⟩ else b ⟨k.val - 128, by have := k.isLt; omega⟩

/-- The leaky rectifier: `h` when `h ≥ 0`, else the slope literal times `h`. -/
def act (h : EReal) : EReal :=
  Scalar.select (Ideal.cmp .oge h (Ideal.ofBits .f32 0x00000000#32)) h (Ideal.ofBits .f32 0x3C23D70A#32 * h)

/-- The mean of 64 entries: their sum divided by the literal 64. -/
def mean64 (v : Fin 64 → EReal) : EReal := Ideal.div (∑ j : Fin 64, v j) (Ideal.ofBits .f32 0x42800000#32)

/-- The deviation of entry `j` from the row's mean. -/
def dev (v : Fin 64 → EReal) (j : Fin 64) : EReal := v j - mean64 v

/-- Layer normalisation of a row of 64 entries, entry `j`. -/
def lnorm (v g be : Fin 64 → EReal) (j : Fin 64) : EReal :=
  dev v j * Ideal.rsqrt (mean64 (fun j' => dev v j' * dev v j') + Ideal.ofBits .f32 0x3727C5AC#32) * g j + be j

/-- The first layer's activated output, entry `j`. -/
def hidden (a : Fin 128 → EReal) (b : Fin 64 → EReal) (W : Fin 192 → Fin 64 → EReal) (b1 : Fin 64 → EReal) (j : Fin 64) : EReal :=
  act ((∑ k : Fin 192, cat a b k * W k j) + b1 j)

/-- One row of the perceptron, entry `c` of its 64 outputs. -/
def mlpRow (a : Fin 128 → EReal) (b : Fin 64 → EReal) (W : Fin 192 → Fin 64 → EReal) (b1 g be : Fin 64 → EReal)
    (W' : Fin 64 → Fin 64 → EReal) (b' : Fin 64 → EReal) (c : Fin 64) : EReal :=
  (∑ j : Fin 64, lnorm (hidden a b W b1) g be j * W' j c) + b' c

/-- The perceptron applied to every row of an [n, 128] and an [n, 64] array, the biases and scales given as vectors of 64. -/
def mlpArr {n : Nat} (A : (⟨2, ![n, 128]⟩ : Shape).Idx → EReal) (B : (⟨2, ![n, 64]⟩ : Shape).Idx → EReal)
    (W : (⟨2, ![192, 64]⟩ : Shape).Idx → EReal) (b1 g be : (⟨1, ![64]⟩ : Shape).Idx → EReal)
    (W' : (⟨2, ![64, 64]⟩ : Shape).Idx → EReal) (b' : (⟨1, ![64]⟩ : Shape).Idx → EReal) : (⟨2, ![n, 64]⟩ : Shape).Idx → EReal :=
  fun i => mlpRow (fun k => A (ValueIdx.ix2 (i 0) k)) (fun k => B (ValueIdx.ix2 (i 0) k)) (fun k j => W (ValueIdx.ix2 k j))
    (fun j => b1 (ValueIdx.ix1 j)) (fun j => g (ValueIdx.ix1 j)) (fun j => be (ValueIdx.ix1 j))
    (fun k j => W' (ValueIdx.ix2 k j)) (fun j => b' (ValueIdx.ix1 j)) (i 1)

/-- The same with the biases and scales given as [1, 64] rows (a vector of 64 reshaped). -/
def mlpArrRows {n : Nat} (A : (⟨2, ![n, 128]⟩ : Shape).Idx → EReal) (B : (⟨2, ![n, 64]⟩ : Shape).Idx → EReal)
    (W : (⟨2, ![192, 64]⟩ : Shape).Idx → EReal) (b1 g be : (⟨2, ![1, 64]⟩ : Shape).Idx → EReal)
    (W' : (⟨2, ![64, 64]⟩ : Shape).Idx → EReal) (b' : (⟨2, ![1, 64]⟩ : Shape).Idx → EReal) : (⟨2, ![n, 64]⟩ : Shape).Idx → EReal :=
  fun i => mlpRow (fun k => A (ValueIdx.ix2 (i 0) k)) (fun k => B (ValueIdx.ix2 (i 0) k)) (fun k j => W (ValueIdx.ix2 k j))
    (fun j => b1 (ValueIdx.ix2 0 j)) (fun j => g (ValueIdx.ix2 0 j)) (fun j => be (ValueIdx.ix2 0 j))
    (fun k j => W' (ValueIdx.ix2 k j)) (fun j => b' (ValueIdx.ix2 0 j)) (i 1)

end Cert.Spec

end
-- ==== Proof.BlockValue.lean ====
/-
  What the kernel body computes on one block of 4000 rows, read at a row and a column: the perceptron of that row.
-/
import proofs.«414315_j2370821947608_1_alg».proof.Proof.Gen.KernelIdeal.Skeleton
import proofs.«414315_j2370821947608_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx Cert.Spec

/-! ## Layout operations at explicit coordinates -/

/-- A column of 4000 entries cast to [4000, 1] reads, at (r, u), the entry r. -/
theorem cast_col_apply {α : Type} (v : S4000.Idx → α) (h : S4000.ShapeCasts S4000x1) (r : Fin 4000) (u : Fin 1) :
    shapeCast S4000x1 v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A [4000, 1] column broadcast to [4000, 64] reads, at (r, c), the column's entry r. -/
theorem bcast_col_apply {α : Type} (v : S4000x1.Idx → α) (h : S4000x1.Broadcasts S4000x64) (r : Fin 4000) (c : Fin 64) :
    broadcastTo S4000x64 v h (ix2 r c) = v (ix2 r (0 : Fin 1)) := by
  refine broadcastTo_apply v h (ix2 r c) (ix2 r (0 : Fin 1)) fun ax => ?_
  match ax with
  | ⟨0, _⟩ =>
    show r.val = if (4000 : Nat) = 1 then 0 else r.val
    rw [if_neg (by decide)]
  | ⟨1, _⟩ => rfl

/-- A [1, 64] row broadcast to [4000, 64] reads, at (r, c), the row's entry c. -/
theorem bcast_row_apply {α : Type} (v : S1x64.Idx → α) (h : S1x64.Broadcasts S4000x64) (r : Fin 4000) (c : Fin 64) :
    broadcastTo S4000x64 v h (ix2 r c) = v (ix2 (0 : Fin 1) c) :=
  broadcastTo_1b_ab_apply v h r c

/-- The reduced index r with the lane k put back is (r, k). -/
theorem lift_row (h : S4000x64.Reduces [1] S4000) (r : Fin 4000) (k : Fin (S4000x64.size 1)) :
    h.lift (ix1 r) k = ix2 r (⟨k.val, k.isLt⟩ : Fin 64) := by
  funext c; apply Fin.ext
  fin_cases c <;> rfl

/-- The sum over the 64 lanes of row r. -/
theorem rowsum_apply (v : FVec Ideal S4000x64 .f32) (h : S4000x64.Reduces [1] S4000) (hφ : FKind.Formats FTy.f32)
    (hacc : (0x00000000#32 : BitVec 32) = FKind.add.neutral .f32 hφ) (r : Fin 4000) :
    multiReduction (F := Ideal) .add [1] S4000 v 0x00000000#32 h hφ hacc (ix1 r) = ∑ k : Fin 64, v (ix2 r k) := by
  refine (Ideal.multiReduction_add_single v 0x00000000#32 h hφ hacc (ix1 r)).trans ?_
  refine Finset.sum_congr rfl fun k _ => ?_
  exact congrArg v (lift_row h r k)

/-! ## The two products at explicit coordinates -/

theorem lhs_mm1_0 (i : S4000x64.Idx) (q : dot_S4000x192_S192x64_S4000x64_1_0_0_1_n_n.contr.Idx) :
    (dot_S4000x192_S192x64_S4000x64_1_0_0_1_n_n.lhsIdx i q 0).val = (i 0).val := by
  unfold DotDims.lhsIdx
  rw [dif_neg (show ¬(0 : Fin S4000x192.rank) ∈ dot_S4000x192_S192x64_S4000x64_1_0_0_1_n_n.lhsBatch by decide), dif_pos (show (0 : Fin S4000x192.rank) ∈ dot_S4000x192_S192x64_S4000x64_1_0_0_1_n_n.lhsNonContracting by decide)]
  rfl
theorem lhs_mm1_1 (i : S4000x64.Idx) (q : dot_S4000x192_S192x64_S4000x64_1_0_0_1_n_n.contr.Idx) :
    (dot_S4000x192_S192x64_S4000x64_1_0_0_1_n_n.lhsIdx i q 1).val = (q ⟨0, by decide⟩).val :=
  dot_S4000x192_S192x64_S4000x64_1_0_0_1_n_n.lhsIdx_val_of_single rfl i q
theorem rhs_mm1_0 (i : S4000x64.Idx) (q : dot_S4000x192_S192x64_S4000x64_1_0_0_1_n_n.contr.Idx) :
    (dot_S4000x192_S192x64_S4000x64_1_0_0_1_n_n.rhsIdx i q 0).val = (q ⟨0, by decide⟩).val :=
  dot_S4000x192_S192x64_S4000x64_1_0_0_1_n_n.rhsIdx_val_of_single rfl i q
theorem rhs_mm1_1 (i : S4000x64.Idx) (q : dot_S4000x192_S192x64_S4000x64_1_0_0_1_n_n.contr.Idx) :
    (dot_S4000x192_S192x64_S4000x64_1_0_0_1_n_n.rhsIdx i q 1).val = (i 1).val := by
  unfold DotDims.rhsIdx
  rw [dif_neg (show ¬(1 : Fin S192x64.rank) ∈ dot_S4000x192_S192x64_S4000x64_1_0_0_1_n_n.rhsBatch by decide), dif_pos (show (1 : Fin S192x64.rank) ∈ dot_S4000x192_S192x64_S4000x64_1_0_0_1_n_n.rhsNonContracting by decide)]
  rfl

/-- The [4000,192] × [192,64] product into a zero accumulator, at (r, c): the sum over the 192 contracted entries. -/
theorem mm1_apply {φ₁ φ₂ : FTy} (A : FVec Ideal S4000x192 φ₁) (W : FVec Ideal S192x64 φ₂) (r : Fin 4000) (c : Fin 64) :
    matmul dot_S4000x192_S192x64_S4000x64_1_0_0_1_n_n none A W (constant (F := Ideal) S4000x64 .f32 0x00000000#32) (ix2 r c)
      = ∑ k : Fin 192, A (ix2 r k) * W (ix2 k c) := by
  refine (Ideal.matmul_constant_zero_apply dot_S4000x192_S192x64_S4000x64_1_0_0_1_n_n none A W (ix2 r c)).trans ?_
  rw [← Equiv.sum_comp (ValueIdx.contrEquiv1 dot_S4000x192_S192x64_S4000x64_1_0_0_1_n_n 192 rfl rfl).symm]
  refine Finset.sum_congr rfl fun k _ => ?_
  have hk := ValueIdx.contrEquiv1_symm_val dot_S4000x192_S192x64_S4000x64_1_0_0_1_n_n 192 rfl rfl k
  have el : dot_S4000x192_S192x64_S4000x64_1_0_0_1_n_n.lhsIdx (ix2 r c) ((ValueIdx.contrEquiv1 dot_S4000x192_S192x64_S4000x64_1_0_0_1_n_n 192 rfl rfl).symm k) = ix2 r k := funext fun a => Fin.ext (by
    match a with
    | ⟨0, _⟩ => exact lhs_mm1_0 _ _
    | ⟨1, _⟩ => exact (lhs_mm1_1 _ _).trans hk)
  have er : dot_S4000x192_S192x64_S4000x64_1_0_0_1_n_n.rhsIdx (ix2 r c) ((ValueIdx.contrEquiv1 dot_S4000x192_S192x64_S4000x64_1_0_0_1_n_n 192 rfl rfl).symm k) = ix2 k c := funext fun a => Fin.ext (by
    match a with
    | ⟨0, _⟩ => exact (rhs_mm1_0 _ _).trans hk
    | ⟨1, _⟩ => exact rhs_mm1_1 _ _)
  rw [el, er]

theorem lhs_mm2_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_mm2_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs_mm2_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs_mm2_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- The [4000,64] × [64,64] product into a zero accumulator, at (r, c): the sum over the 64 contracted entries. -/
theorem mm2_apply {φ₁ φ₂ : FTy} (A : FVec Ideal S4000x64 φ₁) (W : FVec Ideal S64x64 φ₂) (r : Fin 4000) (c : Fin 64) :
    matmul dot_S4000x64_S64x64_S4000x64_1_0_0_1_n_n none A W (constant (F := Ideal) S4000x64 .f32 0x00000000#32) (ix2 r c)
      = ∑ k : Fin 64, A (ix2 r k) * W (ix2 k c) := by
  refine (Ideal.matmul_constant_zero_apply dot_S4000x64_S64x64_S4000x64_1_0_0_1_n_n none A W (ix2 r c)).trans ?_
  rw [← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 r c) ((ValueIdx.contrEquiv1 dot_S4000x64_S64x64_S4000x64_1_0_0_1_n_n 64 rfl rfl).symm k) = ix2 r k := funext fun a => Fin.ext (by
    match a with
    | ⟨0, _⟩ => exact lhs_mm2_0 _ _
    | ⟨1, _⟩ => exact (lhs_mm2_1 _ _).trans hk)
  have er : dot_S4000x64_S64x64_S4000x64_1_0_0_1_n_n.rhsIdx (ix2 r c) ((ValueIdx.contrEquiv1 dot_S4000x64_S64x64_S4000x64_1_0_0_1_n_n 64 rfl rfl).symm k) = ix2 k c := funext fun a => Fin.ext (by
    match a with
    | ⟨0, _⟩ => exact (rhs_mm2_0 _ _).trans hk
    | ⟨1, _⟩ => exact rhs_mm2_1 _ _)
  rw [el, er]

/-! ## The join of a node row and an edge row -/

/-- The [4000,128] and [4000,64] arrays joined along the lanes read, at (r, k), the joined row r at k. -/
theorem cat_apply (A : FVec Ideal S4000x128 .f32) (B : FVec Ideal S4000x64 .f32)
    (h : Shape.Concatenates [S4000x128, S4000x64] S4000x192 1) (r : Fin 4000) (k : Fin 192) :
    concatenate S4000x192 1 [⟨S4000x128, A⟩, ⟨S4000x64, B⟩] h (ix2 r k)
      = cat (fun k => A (ix2 r k)) (fun k => B (ix2 r k)) k := by
  unfold cat
  by_cases hk : k.val < 128
  · rw [dif_pos hk]
    exact concatenate_pair_apply_left (1 : Fin S4000x192.rank) A B h (ix2 r k) rfl (ix2 r (⟨k.val, hk⟩ : Fin 128))
      (fun b => match b with | ⟨0, _⟩ => rfl | ⟨1, _⟩ => rfl)
  · rw [dif_neg hk]
    exact concatenate_pair_apply_right (1 : Fin S4000x192.rank) A B h (ix2 r k) rfl rfl
      (ix2 r (⟨k.val - 128, by have := k.isLt; omega⟩ : Fin 64))
      (fun b hb => match b, hb with | ⟨0, _⟩, _ => rfl | ⟨1, _⟩, hb => absurd rfl hb)
      (by show (k.val - 128) + 128 = k.val; omega)

/-! ## The stages of the body, each over a whole block -/

/-- The first layer before its activation: the joined rows times the weights, plus the bias row. -/
def preV (A : FVec Ideal S4000x128 .f32) (B : FVec Ideal S4000x64 .f32) (W : Vec Ideal S192x64 .f32)
    (b : Vec Ideal S1x64 .f32) : FVec Ideal S4000x64 .f32 :=
  addf (matmul dot_S4000x192_S192x64_S4000x64_1_0_0_1_n_n none
      (truncf .bf16 (concatenate S4000x192 1 [⟨S4000x128, A⟩, ⟨S4000x64, B⟩] concatenates_S4000x128_S4000x64_S4000x192_d1) bitsLt_bf16_f32)
      (truncf .bf16 W bitsLt_bf16_f32) (constant S4000x64 .f32 0x00000000#32))
    (broadcastTo S4000x64 (shapeCast S1x64 b shapeCasts_S1x64_S1x64) broadcasts_S1x64_S4000x64)

theorem preV_apply (A : FVec Ideal S4000x128 .f32) (B : FVec Ideal S4000x64 .f32) (W : Vec Ideal S192x64 .f32)
    (b : Vec Ideal S1x64 .f32) (r : Fin 4000) (c : Fin 64) :
    preV A B W b (ix2 r c)
      = (∑ k : Fin 192, cat (fun k => A (ix2 r k)) (fun k => B (ix2 r k)) k * W (ix2 k c)) + b (ix2 0 c) := by
  unfold preV
  rw [addf_apply, mm1_apply, bcast_row_apply, shapeCast_self]
  refine congrArg (· + b (ix2 0 c)) (Finset.sum_congr rfl fun k _ => ?_)
  rw [truncf_apply, truncf_apply, cat_apply]

/-- The activation applied to every entry. -/
def actV (v : FVec Ideal S4000x64 .f32) : FVec Ideal S4000x64 .f32 :=
  select (cmpf .oge v (broadcast S4000x64 (Scalar.ofBits (F := Ideal) .f32 0x00000000#32))) v
    (mulf (broadcast S4000x64 (Scalar.ofBits (F := Ideal) .f32 0x3C23D70A#32)) v)

theorem actV_apply (v : FVec Ideal S4000x64 .f32) (i : S4000x64.Idx) : actV v i = act (v i) := rfl

/-- Each row's mean, as a [4000, 1] column. -/
def meanV (v : FVec Ideal S4000x64 .f32) : FVec Ideal S4000x1 .f32 :=
  divf (shapeCast S4000x1 (multiReduction .add [1] S4000 v 0x00000000#32 reduces_S4000x64_S4000 (.inl rfl) rfl) shapeCasts_S4000_S4000x1)
    (broadcast S4000x1 (Scalar.ofBits (F := Ideal) .f32 0x42800000#32))

theorem meanV_apply (v : FVec Ideal S4000x64 .f32) (r : Fin 4000) (u : Fin 1) :
    meanV v (ix2 r u) = mean64 (fun k => v (ix2 r k)) := by
  unfold meanV mean64
  refine congrArg (fun x => Ideal.div x (Ideal.ofBits .f32 0x42800000#32)) ?_
  exact (cast_col_apply _ _ r u).trans (rowsum_apply v _ _ _ r)

/-- Every entry less its row's mean. -/
def devV (v : FVec Ideal S4000x64 .f32) : FVec Ideal S4000x64 .f32 :=
  subf v (broadcastTo S4000x64 (meanV v) broadcasts_S4000x1_S4000x64)

theorem devV_apply (v : FVec Ideal S4000x64 .f32) (r : Fin 4000) (c : Fin 64) :
    devV v (ix2 r c) = dev (fun k => v (ix2 r k)) c := by
  unfold devV dev
  rw [subf_apply, bcast_col_apply, meanV_apply]

/-- The normalisation before its scale and shift. -/
def normV (v : FVec Ideal S4000x64 .f32) : FVec Ideal S4000x64 .f32 :=
  mulf (devV v) (broadcastTo S4000x64 (rsqrt (addf (meanV (mulf (devV v) (devV v)))
    (broadcast S4000x1 (Scalar.ofBits (F := Ideal) .f32 0x3727C5AC#32)))) broadcasts_S4000x1_S4000x64)

theorem normV_apply (v : FVec Ideal S4000x64 .f32) (r : Fin 4000) (c : Fin 64) :
    normV v (ix2 r c) = dev (fun k => v (ix2 r k)) c
      * Ideal.rsqrt (mean64 (fun j' => dev (fun k => v (ix2 r k)) j' * dev (fun k => v (ix2 r k)) j') + Ideal.ofBits .f32 0x3727C5AC#32) := by
  unfold normV
  rw [mulf_apply, devV_apply, bcast_col_apply]
  refine congrArg (dev (fun k => v (ix2 r k)) c * ·) ?_
  show Ideal.rsqrt (meanV (mulf (devV v) (devV v)) (ix2 r 0) + Ideal.ofBits .f32 0x3727C5AC#32) = _
  rw [meanV_apply]
  refine congrArg (fun x => Ideal.rsqrt (mean64 x + Ideal.ofBits .f32 0x3727C5AC#32)) (funext fun j' => ?_)
  rw [mulf_apply, devV_apply]

/-- The scale and shift, then the second layer: the normalised rows times the weights, plus the bias row. -/
def outV (g be : FVec Ideal S1x64 .f32) (n : FVec Ideal S4000x64 .f32) (W' : Vec Ideal S64x64 .f32)
    (b' : Vec Ideal S1x64 .f32) : FVec Ideal S4000x64 .f32 :=
  addf (matmul dot_S4000x64_S64x64_S4000x64_1_0_0_1_n_n none
      (truncf .bf16 (addf (mulf n (broadcastTo S4000x64 g broadcasts_S1x64_S4000x64)) (broadcastTo S4000x64 be broadcasts_S1x64_S4000x64)) bitsLt_bf16_f32)
      (truncf .bf16 W' bitsLt_bf16_f32) (constant S4000x64 .f32 0x00000000#32))
    (broadcastTo S4000x64 (shapeCast S1x64 b' shapeCasts_S1x64_S1x64) broadcasts_S1x64_S4000x64)

theorem outV_apply (g be : FVec Ideal S1x64 .f32) (n : FVec Ideal S4000x64 .f32) (W' : Vec Ideal S64x64 .f32)
    (b' : Vec Ideal S1x64 .f32) (r : Fin 4000) (c : Fin 64) :
    outV g be n W' b' (ix2 r c)
      = (∑ j : Fin 64, (n (ix2 r j) * g (ix2 0 j) + be (ix2 0 j)) * W' (ix2 j c)) + b' (ix2 0 c) := by
  unfold outV
  rw [addf_apply, mm2_apply, bcast_row_apply, shapeCast_self]
  refine congrArg (· + b' (ix2 0 c)) (Finset.sum_congr rfl fun j _ => ?_)
  rw [truncf_apply, truncf_apply, addf_apply, mulf_apply, bcast_row_apply, bcast_row_apply]

/-! ## The stored block -/

/-- The whole body over a block, from the stages. -/
theorem body_apply (A : FVec Ideal S4000x128 .f32) (B : FVec Ideal S4000x64 .f32) (W : Vec Ideal S192x64 .f32)
    (b g be : Vec Ideal S1x64 .f32) (W' : Vec Ideal S64x64 .f32) (b' : Vec Ideal S1x64 .f32) (r : Fin 4000) (c : Fin 64) :
    outV g be (normV (actV (preV A B W b))) W' b' (ix2 r c)
      = mlpRow (fun k => A (ix2 r k)) (fun k => B (ix2 r k)) (fun k j => W (ix2 k j)) (fun j => b (ix2 0 j))
          (fun j => g (ix2 0 j)) (fun j => be (ix2 0 j)) (fun k j => W' (ix2 k j)) (fun j => b' (ix2 0 j)) c := by
  rw [outV_apply]
  unfold mlpRow
  refine congrArg (· + b' (ix2 0 c)) (Finset.sum_congr rfl fun j _ => ?_)
  refine congrArg (· * W' (ix2 j c)) ?_
  unfold lnorm
  rw [normV_apply]
  have hv : (fun k => actV (preV A B W b) (ix2 r k))
      = hidden (fun k => A (ix2 r k)) (fun k => B (ix2 r k)) (fun k j => W (ix2 k j)) (fun j => b (ix2 0 j)) := by
    funext k
    rw [actV_apply, preV_apply]
    rfl
  rw [hv]

/-- Region 0's stored block at row `r`, column `c`. -/
theorem block0_apply (x0 : Vec Ideal S4000x128 .f32) (x1 : Vec Ideal S4000x64 .f32) (x2 : Vec Ideal S192x64 .f32)
    (x3 x4 x5 : Vec Ideal S1x64 .f32) (x6 : Vec Ideal S64x64 .f32) (x7 : Vec Ideal S1x64 .f32) (r : Fin 4000) (c : Fin 64) :
    k0_pay1 (F := Ideal) (k0_pay2 x4) (k0_pay3 x5) (k0_pay4 x0 x1 x2 x3) x6 x7 (ix2 r c)
      = mlpRow (fun k => x0 (ix2 r k)) (fun k => x1 (ix2 r k)) (fun k j => x2 (ix2 k j)) (fun j => x3 (ix2 0 j))
          (fun j => x4 (ix2 0 j)) (fun j => x5 (ix2 0 j)) (fun k j => x6 (ix2 k j)) (fun j => x7 (ix2 0 j)) c := by
  have e : k0_pay1 (F := Ideal) (k0_pay2 x4) (k0_pay3 x5) (k0_pay4 x0 x1 x2 x3) x6 x7
      = outV (shapeCast S1x64 x4 shapeCasts_S1x64_S1x64) (shapeCast S1x64 x5 shapeCasts_S1x64_S1x64)
          (normV (actV (preV (shapeCast S4000x128 x0 shapeCasts_S4000x128_S4000x128) x1 x2 x3))) x6 x7 := rfl
  rw [e, shapeCast_self, shapeCast_self, shapeCast_self]
  exact body_apply x0 x1 x2 x3 x4 x5 x6 x7 r c

/-- Region 1's stored block at row `r`, column `c`: the same body. -/
theorem block1_apply (x0 : Vec Ideal S4000x128 .f32) (x1 : Vec Ideal S4000x64 .f32) (x2 : Vec Ideal S192x64 .f32)
    (x3 x4 x5 : Vec Ideal S1x64 .f32) (x6 : Vec Ideal S64x64 .f32) (x7 : Vec Ideal S1x64 .f32) (r : Fin 4000) (c : Fin 64) :
    k1_pay1 (F := Ideal) (k1_pay2 x4) (k1_pay3 x5) (k1_pay4 x0 x1 x2 x3) x6 x7 (ix2 r c)
      = mlpRow (fun k => x0 (ix2 r k)) (fun k => x1 (ix2 r k)) (fun k j => x2 (ix2 k j)) (fun j => x3 (ix2 0 j))
          (fun j => x4 (ix2 0 j)) (fun j => x5 (ix2 0 j)) (fun k j => x6 (ix2 k j)) (fun j => x7 (ix2 0 j)) c := by
  have e : k1_pay1 (F := Ideal) (k1_pay2 x4) (k1_pay3 x5) (k1_pay4 x0 x1 x2 x3) x6 x7
      = outV (shapeCast S1x64 x4 shapeCasts_S1x64_S1x64) (shapeCast S1x64 x5 shapeCasts_S1x64_S1x64)
          (normV (actV (preV x0 (shapeCast S4000x64 x1 shapeCasts_S4000x64_S4000x64) x2 x3))) x6 x7 := rfl
  rw [e, shapeCast_self, shapeCast_self, shapeCast_self]
  exact body_apply x0 x1 x2 x3 x4 x5 x6 x7 r c

end Cert.KernelIdeal.BlockValue

end
-- ==== Proof.Region0Value.lean ====
/-
  The first kernel's output array after its run: every block of 4000 rows is the perceptron of those rows, and the
  250 blocks tile the [1000000, 64] array, so the array is the perceptron of every row of the arrays the region finds.
-/
import proofs.«414315_j2370821947608_1_alg».proof.Proof.Gen.KernelIdeal.Frame
import proofs.«414315_j2370821947608_1_alg».proof.Proof.BlockValue
import proofs.«414315_j2370821947608_1_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen Cert.KernelIdeal.BlockValue Cert.Spec
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

theorem grid_size : cfg0.N = 250 := rfl

/-- The printed index maps over the grid: the two row-blocked inputs and the output sit at block (t, 0), the
    weights, biases and scales at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The node-feature block at point t, read at row r: row 4000 t + r of the [1000000, 128] array. -/
theorem nodeBlock_apply (c : Dev nD) (t : Fin cfg0.N) (x : S4000x128.Idx) (k : S1000000x128.Idx)
    (hk0 : (k 0).val = t.val * 4000 + (x 0).val) (hk1 : (k 1).val = (x 1).val) :
    (iblk0 V c 0 t : Vec Ideal S4000x128 .f32) x = (V c main_v4 : S1000000x128.Idx → EReal) k := by
  obtain ⟨e0, e1, -⟩ := index_facts t
  unfold iblk0
  rw [View.read_apply]
  show V c main_v4 _ = V c main_v4 _
  congr 1
  funext a
  apply Fin.ext
  match a with
  | ⟨0, _⟩ => show win0_0.index t (0 : Fin 2) * 4000 + 1 * (x 0).val = (k 0).val; rw [e0, hk0]; omega
  | ⟨1, _⟩ => show win0_0.index t (1 : Fin 2) * 128 + 1 * (x 1).val = (k 1).val; rw [e1, hk1]; omega

/-- The edge-feature block at point t, read at row r: row 4000 t + r of the [1000000, 64] array. -/
theorem edgeBlock_apply (c : Dev nD) (t : Fin cfg0.N) (x : S4000x64.Idx) (k : S1000000x64.Idx)
    (hk0 : (k 0).val = t.val * 4000 + (x 0).val) (hk1 : (k 1).val = (x 1).val) :
    (iblk0 V c 1 t : Vec Ideal S4000x64 .f32) x = (V c main_arg2 : S1000000x64.Idx → EReal) k := by
  obtain ⟨-, -, e0, e1, -⟩ := index_facts t
  unfold iblk0
  rw [View.read_apply]
  show V c main_arg2 _ = V c main_arg2 _
  congr 1
  funext a
  apply Fin.ext
  match a with
  | ⟨0, _⟩ => show win0_1.index t (0 : Fin 2) * 4000 + 1 * (x 0).val = (k 0).val; rw [e0, hk0]; omega
  | ⟨1, _⟩ => show win0_1.index t (1 : Fin 2) * 64 + 1 * (x 1).val = (k 1).val; rw [e1, hk1]; omega

/-- The first layer's weights are staged whole at every point. -/
theorem weight1Block_apply (c : Dev nD) (t : Fin cfg0.N) (x : S192x64.Idx) :
    (iblk0 V c 2 t : Vec Ideal S192x64 .f32) x = (V c main_arg3 : S192x64.Idx → EReal) x := by
  obtain ⟨-, -, -, -, e0, e1, -⟩ := index_facts t
  unfold iblk0
  rw [View.read_apply]
  show V c main_arg3 _ = V c main_arg3 _
  congr 1
  funext a
  apply Fin.ext
  match a with
  | ⟨0, _⟩ => show win0_2.index t (0 : Fin 2) * 192 + 1 * (x 0).val = (x 0).val; rw [e0]; omega
  | ⟨1, _⟩ => show win0_2.index t (1 : Fin 2) * 64 + 1 * (x 1).val = (x 1).val; rw [e1]; omega

/-- The first layer's bias row is staged whole at every point. -/
theorem bias1Block_apply (c : Dev nD) (t : Fin cfg0.N) (x : S1x64.Idx) :
    (iblk0 V c 3 t : Vec Ideal S1x64 .f32) x = (V c main_v5 : S1x64.Idx → EReal) x := by
  obtain ⟨-, -, -, -, -, -, e0, e1, -⟩ := index_facts t
  unfold iblk0
  rw [View.read_apply]
  show V c main_v5 _ = V c main_v5 _
  congr 1
  funext a
  apply Fin.ext
  match a with
  | ⟨0, _⟩ => show win0_3.index t (0 : Fin 2) * 1 + 1 * (x 0).val = (x 0).val; rw [e0]; omega
  | ⟨1, _⟩ => show win0_3.index t (1 : Fin 2) * 64 + 1 * (x 1).val = (x 1).val; rw [e1]; omega

/-- The normalisation's scale row is staged whole at every point. -/
theorem scaleBlock_apply (c : Dev nD) (t : Fin cfg0.N) (x : S1x64.Idx) :
    (iblk0 V c 4 t : Vec Ideal S1x64 .f32) x = (V c main_v6 : S1x64.Idx → EReal) x := by
  obtain ⟨-, -, -, -, -, -, -, -, e0, e1, -⟩ := index_facts t
  unfold iblk0
  rw [View.read_apply]
  show V c main_v6 _ = V c main_v6 _
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 64 + 1 * (x 1).val = (x 1).val; rw [e1]; omega

/-- The normalisation's shift row is staged whole at every point. -/
theorem shiftBlock_apply (c : Dev nD) (t : Fin cfg0.N) (x : S1x64.Idx) :
    (iblk0 V c 5 t : Vec Ideal S1x64 .f32) x = (V c main_v7 : S1x64.Idx → EReal) x := by
  obtain ⟨-, -, -, -, -, -, -, -, -, -, e0, e1, -⟩ := index_facts t
  unfold iblk0
  rw [View.read_apply]
  show V c main_v7 _ = V c main_v7 _
  congr 1
  funext a
  apply Fin.ext
  match a with
  | ⟨0, _⟩ => show win0_5.index t (0 : Fin 2) * 1 + 1 * (x 0).val = (x 0).val; rw [e0]; omega
  | ⟨1, _⟩ => show win0_5.index t (1 : Fin 2) * 64 + 1 * (x 1).val = (x 1).val; rw [e1]; omega

/-- The second layer's weights are staged whole at every point. -/
theorem weight2Block_apply (c : Dev nD) (t : Fin cfg0.N) (x : S64x64.Idx) :
    (iblk0 V c 6 t : Vec Ideal S64x64 .f32) x = (V c main_arg7 : S64x64.Idx → EReal) x := by
  obtain ⟨-, -, -, -, -, -, -, -, -, -, -, -, e0, e1, -⟩ := index_facts t
  unfold iblk0
  rw [View.read_apply]
  show V c main_arg7 _ = V c main_arg7 _
  congr 1
  funext a
  apply Fin.ext
  match a with
  | ⟨0, _⟩ => show win0_6.index t (0 : Fin 2) * 64 + 1 * (x 0).val = (x 0).val; rw [e0]; omega
  | ⟨1, _⟩ => show win0_6.index t (1 : Fin 2) * 64 + 1 * (x 1).val = (x 1).val; rw [e1]; omega

/-- The second layer's bias row is staged whole at every point. -/
theorem bias2Block_apply (c : Dev nD) (t : Fin cfg0.N) (x : S1x64.Idx) :
    (iblk0 V c 7 t : Vec Ideal S1x64 .f32) x = (V c main_v8 : S1x64.Idx → EReal) x := by
  obtain ⟨-, -, -, -, -, -, -, -, -, -, -, -, -, -, e0, e1, -⟩ := index_facts t
  unfold iblk0
  rw [View.read_apply]
  show V c main_v8 _ = V c main_v8 _
  congr 1
  funext a
  apply Fin.ext
  match a with
  | ⟨0, _⟩ => show win0_7.index t (0 : Fin 2) * 1 + 1 * (x 0).val = (x 0).val; rw [e0]; omega
  | ⟨1, _⟩ => show win0_7.index t (1 : Fin 2) * 64 + 1 * (x 1).val = (x 1).val; rw [e1]; omega

/-- The perceptron of a row depends only on the entries of its arguments. -/
theorem mlpRow_congr {a a' : Fin 128 → EReal} {b b' : Fin 64 → EReal} {W W₂ : Fin 192 → Fin 64 → EReal}
    {b1 b1' g g' be be' : Fin 64 → EReal} {W' W₂' : Fin 64 → Fin 64 → EReal} {d d' : Fin 64 → EReal} {q q' : Fin 64}
    (ha : ∀ k, a k = a' k) (hb : ∀ k, b k = b' k) (hW : ∀ k j, W k j = W₂ k j) (hb1 : ∀ j, b1 j = b1' j)
    (hg : ∀ j, g j = g' j) (hbe : ∀ j, be j = be' j) (hW' : ∀ k j, W' k j = W₂' k j) (hd : ∀ j, d j = d' j) (hq : q = q') :
    mlpRow a b W b1 g be W' d q = mlpRow a' b' W₂ b1' g' be' W₂' d' q' := by
  obtain rfl : a = a' := funext ha
  obtain rfl : b = b' := funext hb
  obtain rfl : W = W₂ := funext fun k => funext (hW k)
  obtain rfl : b1 = b1' := funext hb1
  obtain rfl : g = g' := funext hg
  obtain rfl : be = be' := funext hbe
  obtain rfl : W' = W₂' := funext fun k => funext (hW' k)
  obtain rfl : d = d' := funext hd
  rw [hq]

/-- What point t writes back is block t of the perceptron of every row of the arrays the region finds. -/
theorem flushed_eq (c : Dev nD) (t : Fin cfg0.N) :
    (dat0 (F := Ideal) V c).flushed 8 t = ((cfg0.win 8).blk t).view.read (Elt Ideal)
      (mlpArrRows (n := 1000000) (V c main_v4) (V c main_arg2) (V c main_arg3) (V c main_v5) (V c main_v6) (V c main_v7)
        (V c main_arg7) (V c main_v8)) := by
  show (cfg0.win 8).cut (grid0.coords t) ((dat0 (F := Ideal) V c).after 8 t) = _
  rw [after0_8]
  unfold out0_8
  rw [View.canon_unit_zero zero_offsets]
  simp only [View.ld_unit_zero (S := S4000x128) zero_offsets, View.ld_unit_zero (S := S4000x64) zero_offsets,
    View.ld_unit_zero (S := S192x64) zero_offsets, View.ld_unit_zero (S := S1x64) zero_offsets,
    View.ld_unit_zero (S := S64x64) zero_offsets]
  obtain ⟨-, -, -, -, -, -, -, -, -, -, -, -, -, -, -, -, e0, e1⟩ := index_facts t
  refine funext fun (j : S4000x64.Idx) => ?_
  obtain ⟨r, q, rfl⟩ : ∃ (r : Fin 4000) (q : Fin 64), j = ix2 r q := ⟨j 0, j 1, eq_ix2 j⟩
  have hrow : ((((cfg0.win 8).blk t).view.emb (ix2 r q) : S1000000x64.Idx) 0).val = t.val * 4000 + r.val := by
    show win0_8.index t (0 : Fin 2) * 4000 + 1 * r.val = _
    rw [e0]; omega
  have hcol : ((((cfg0.win 8).blk t).view.emb (ix2 r q) : S1000000x64.Idx) 1).val = q.val := by
    show win0_8.index t (1 : Fin 2) * 64 + 1 * q.val = _
    rw [e1]; omega
  show k0_pay1 (F := Ideal) (k0_pay2 (iblk0 V c 4 t)) (k0_pay3 (iblk0 V c 5 t))
      (k0_pay4 (iblk0 V c 0 t) (iblk0 V c 1 t) (iblk0 V c 2 t) (iblk0 V c 3 t)) (iblk0 V c 6 t) (iblk0 V c 7 t) (ix2 r q)
    = mlpArrRows (n := 1000000) (V c main_v4) (V c main_arg2) (V c main_arg3) (V c main_v5) (V c main_v6) (V c main_v7)
        (V c main_arg7) (V c main_v8) (((cfg0.win 8).blk t).view.emb (ix2 r q))
  refine (block0_apply (iblk0 V c 0 t) (iblk0 V c 1 t) (iblk0 V c 2 t) (iblk0 V c 3 t) (iblk0 V c 4 t) (iblk0 V c 5 t)
    (iblk0 V c 6 t) (iblk0 V c 7 t) r q).trans ?_
  unfold mlpArrRows
  refine mlpRow_congr (fun k => ?_) (fun k => ?_) (fun k j => ?_) (fun j => ?_) (fun j => ?_) (fun j => ?_) (fun k j => ?_)
    (fun j => ?_) ?_
  · exact nodeBlock_apply V c t (ix2 r k) _ hrow rfl
  · exact edgeBlock_apply V c t (ix2 r k) _ hrow rfl
  · exact weight1Block_apply V c t (ix2 k j)
  · exact bias1Block_apply V c t (ix2 0 j)
  · exact scaleBlock_apply V c t (ix2 0 j)
  · exact shiftBlock_apply V c t (ix2 0 j)
  · exact weight2Block_apply V c t (ix2 k j)
  · exact bias2Block_apply V c t (ix2 0 j)
  · exact Fin.ext hcol.symm

/-- An index of the output array is in point t's block iff each coordinate is in the block's range on its axis. -/
theorem mem_block (t : Fin cfg0.N) (i : S1000000x64.Idx) :
    i ∈ ((cfg0.win 8).blk t).view.set ↔ ∀ a : Fin 2, win0_8.index t a * S4000x64.size a ≤ (i a).val ∧ (i a).val < win0_8.index t a * S4000x64.size a + S4000x64.size a := by
  show i ∈ ((View.whole main_v9).slice (win0_8.rect t)).set ↔ _
  rw [View.set_slice_whole, Rect.mem_set_unit]
  exact Iff.rfl

/-- Every row of the output array lies in the block of the point (row / 4000). -/
theorem covered (i : S1000000x64.Idx) :
    ∃ t : Fin cfg0.N, (cfg0.win 8).flush t = true ∧ i ∈ ((cfg0.win 8).blk t).view.set := by
  have hi0 : (i 0).val < 1000000 := (i 0).isLt
  have hi1 : (i 1).val < 64 := (i 1).isLt
  let t : Fin cfg0.N := ⟨(i 0).val / 4000, by rw [grid_size]; omega⟩
  have ht : t.val = (i 0).val / 4000 := rfl
  obtain ⟨-, -, -, -, -, -, -, -, -, -, -, -, -, -, -, -, e0, e1⟩ := index_facts t
  refine ⟨t, flush0_8 t, ?_⟩
  rw [mem_block]
  intro a
  match a with
  | ⟨0, _⟩ => show win0_8.index t (0 : Fin 2) * 4000 ≤ (i 0).val ∧ (i 0).val < win0_8.index t (0 : Fin 2) * 4000 + 4000; rw [e0, ht]; omega
  | ⟨1, _⟩ => show win0_8.index t (1 : Fin 2) * 64 ≤ (i 1).val ∧ (i 1).val < win0_8.index t (1 : Fin 2) * 64 + 64; rw [e1]; omega

/-- The array region 0 leaves in its output window, as one function of the arrays it finds. -/
theorem final0 (c : Dev nD) :
    (dat0 (F := Ideal) V c).arrAt 8 cfg0.N
      = mlpArrRows (n := 1000000) (V c main_v4) (V c main_arg2) (V c main_arg3) (V c main_v5) (V c main_v6) (V c main_v7)
          (V c main_arg7) (V c main_v8) :=
  (dat0 (F := Ideal) V c).arrAt_eq_of_cover 8 _ (fun t _ => flushed_eq V c t) covered

end Cert.KernelIdeal.Region0

end
-- ==== Proof.Region1Value.lean ====
/-
  The second kernel's output array after its run: every block of 4000 rows is the perceptron of those rows, and the
  25 blocks tile the [100000, 64] array, so the array is the perceptron of every row of the arrays the region finds.
-/
import proofs.«414315_j2370821947608_1_alg».proof.Proof.Gen.KernelIdeal.Frame
import proofs.«414315_j2370821947608_1_alg».proof.Proof.BlockValue
import proofs.«414315_j2370821947608_1_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen Cert.KernelIdeal.BlockValue Cert.Spec
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

theorem grid_size : cfg1.N = 25 := rfl

/-- The printed index maps over the grid: the two row-blocked inputs and the output sit at block (t, 0), the
    weights, biases and scales at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- The node-feature block at point t, read at row r: row 4000 t + r of the [100000, 128] array. -/
theorem nodeBlock_apply (c : Dev nD) (t : Fin cfg1.N) (x : S4000x128.Idx) (k : S100000x128.Idx)
    (hk0 : (k 0).val = t.val * 4000 + (x 0).val) (hk1 : (k 1).val = (x 1).val) :
    (iblk1 V c 0 t : Vec Ideal S4000x128 .f32) x = (V c main_arg0 : S100000x128.Idx → EReal) k := by
  obtain ⟨e0, e1, -⟩ := index_facts t
  unfold iblk1
  rw [View.read_apply]
  show V c main_arg0 _ = V c main_arg0 _
  congr 1
  funext a
  apply Fin.ext
  match a with
  | ⟨0, _⟩ => show win1_0.index t (0 : Fin 2) * 4000 + 1 * (x 0).val = (k 0).val; rw [e0, hk0]; omega
  | ⟨1, _⟩ => show win1_0.index t (1 : Fin 2) * 128 + 1 * (x 1).val = (k 1).val; rw [e1, hk1]; omega

/-- The edge-feature block at point t, read at row r: row 4000 t + r of the [100000, 64] array. -/
theorem edgeBlock_apply (c : Dev nD) (t : Fin cfg1.N) (x : S4000x64.Idx) (k : S100000x64.Idx)
    (hk0 : (k 0).val = t.val * 4000 + (x 0).val) (hk1 : (k 1).val = (x 1).val) :
    (iblk1 V c 1 t : Vec Ideal S4000x64 .f32) x = (V c main_v21 : S100000x64.Idx → EReal) k := by
  obtain ⟨-, -, e0, e1, -⟩ := index_facts t
  unfold iblk1
  rw [View.read_apply]
  show V c main_v21 _ = V c main_v21 _
  congr 1
  funext a
  apply Fin.ext
  match a with
  | ⟨0, _⟩ => show win1_1.index t (0 : Fin 2) * 4000 + 1 * (x 0).val = (k 0).val; rw [e0, hk0]; omega
  | ⟨1, _⟩ => show win1_1.index t (1 : Fin 2) * 64 + 1 * (x 1).val = (k 1).val; rw [e1, hk1]; omega

/-- The first layer's weights are staged whole at every point. -/
theorem weight1Block_apply (c : Dev nD) (t : Fin cfg1.N) (x : S192x64.Idx) :
    (iblk1 V c 2 t : Vec Ideal S192x64 .f32) x = (V c main_arg9 : S192x64.Idx → EReal) x := by
  obtain ⟨-, -, -, -, e0, e1, -⟩ := index_facts t
  unfold iblk1
  rw [View.read_apply]
  show V c main_arg9 _ = V c main_arg9 _
  congr 1
  funext a
  apply Fin.ext
  match a with
  | ⟨0, _⟩ => show win1_2.index t (0 : Fin 2) * 192 + 1 * (x 0).val = (x 0).val; rw [e0]; omega
  | ⟨1, _⟩ => show win1_2.index t (1 : Fin 2) * 64 + 1 * (x 1).val = (x 1).val; rw [e1]; omega

/-- The first layer's bias row is staged whole at every point. -/
theorem bias1Block_apply (c : Dev nD) (t : Fin cfg1.N) (x : S1x64.Idx) :
    (iblk1 V c 3 t : Vec Ideal S1x64 .f32) x = (V c main_v22 : S1x64.Idx → EReal) x := by
  obtain ⟨-, -, -, -, -, -, e0, e1, -⟩ := index_facts t
  unfold iblk1
  rw [View.read_apply]
  show V c main_v22 _ = V c main_v22 _
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 64 + 1 * (x 1).val = (x 1).val; rw [e1]; omega

/-- The normalisation's scale row is staged whole at every point. -/
theorem scaleBlock_apply (c : Dev nD) (t : Fin cfg1.N) (x : S1x64.Idx) :
    (iblk1 V c 4 t : Vec Ideal S1x64 .f32) x = (V c main_v23 : S1x64.Idx → EReal) x := by
  obtain ⟨-, -, -, -, -, -, -, -, e0, e1, -⟩ := index_facts t
  unfold iblk1
  rw [View.read_apply]
  show V c main_v23 _ = V c main_v23 _
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 64 + 1 * (x 1).val = (x 1).val; rw [e1]; omega

/-- The normalisation's shift row is staged whole at every point. -/
theorem shiftBlock_apply (c : Dev nD) (t : Fin cfg1.N) (x : S1x64.Idx) :
    (iblk1 V c 5 t : Vec Ideal S1x64 .f32) x = (V c main_v24 : S1x64.Idx → EReal) x := by
  obtain ⟨-, -, -, -, -, -, -, -, -, -, e0, e1, -⟩ := index_facts t
  unfold iblk1
  rw [View.read_apply]
  show V c main_v24 _ = V c main_v24 _
  congr 1
  funext a
  apply Fin.ext
  match a with
  | ⟨0, _⟩ => show win1_5.index t (0 : Fin 2) * 1 + 1 * (x 0).val = (x 0).val; rw [e0]; omega
  | ⟨1, _⟩ => show win1_5.index t (1 : Fin 2) * 64 + 1 * (x 1).val = (x 1).val; rw [e1]; omega

/-- The second layer's weights are staged whole at every point. -/
theorem weight2Block_apply (c : Dev nD) (t : Fin cfg1.N) (x : S64x64.Idx) :
    (iblk1 V c 6 t : Vec Ideal S64x64 .f32) x = (V c main_arg13 : S64x64.Idx → EReal) x := by
  obtain ⟨-, -, -, -, -, -, -, -, -, -, -, -, e0, e1, -⟩ := index_facts t
  unfold iblk1
  rw [View.read_apply]
  show V c main_arg13 _ = V c main_arg13 _
  congr 1
  funext a
  apply Fin.ext
  match a with
  | ⟨0, _⟩ => show win1_6.index t (0 : Fin 2) * 64 + 1 * (x 0).val = (x 0).val; rw [e0]; omega
  | ⟨1, _⟩ => show win1_6.index t (1 : Fin 2) * 64 + 1 * (x 1).val = (x 1).val; rw [e1]; omega

/-- The second layer's bias row is staged whole at every point. -/
theorem bias2Block_apply (c : Dev nD) (t : Fin cfg1.N) (x : S1x64.Idx) :
    (iblk1 V c 7 t : Vec Ideal S1x64 .f32) x = (V c main_v25 : S1x64.Idx → EReal) x := by
  obtain ⟨-, -, -, -, -, -, -, -, -, -, -, -, -, -, e0, e1, -⟩ := index_facts t
  unfold iblk1
  rw [View.read_apply]
  show V c main_v25 _ = V c main_v25 _
  congr 1
  funext a
  apply Fin.ext
  match a with
  | ⟨0, _⟩ => show win1_7.index t (0 : Fin 2) * 1 + 1 * (x 0).val = (x 0).val; rw [e0]; omega
  | ⟨1, _⟩ => show win1_7.index t (1 : Fin 2) * 64 + 1 * (x 1).val = (x 1).val; rw [e1]; omega

/-- The perceptron of a row depends only on the entries of its arguments. -/
theorem mlpRow_congr {a a' : Fin 128 → EReal} {b b' : Fin 64 → EReal} {W W₂ : Fin 192 → Fin 64 → EReal}
    {b1 b1' g g' be be' : Fin 64 → EReal} {W' W₂' : Fin 64 → Fin 64 → EReal} {d d' : Fin 64 → EReal} {q q' : Fin 64}
    (ha : ∀ k, a k = a' k) (hb : ∀ k, b k = b' k) (hW : ∀ k j, W k j = W₂ k j) (hb1 : ∀ j, b1 j = b1' j)
    (hg : ∀ j, g j = g' j) (hbe : ∀ j, be j = be' j) (hW' : ∀ k j, W' k j = W₂' k j) (hd : ∀ j, d j = d' j) (hq : q = q') :
    mlpRow a b W b1 g be W' d q = mlpRow a' b' W₂ b1' g' be' W₂' d' q' := by
  obtain rfl : a = a' := funext ha
  obtain rfl : b = b' := funext hb
  obtain rfl : W = W₂ := funext fun k => funext (hW k)
  obtain rfl : b1 = b1' := funext hb1
  obtain rfl : g = g' := funext hg
  obtain rfl : be = be' := funext hbe
  obtain rfl : W' = W₂' := funext fun k => funext (hW' k)
  obtain rfl : d = d' := funext hd
  rw [hq]

/-- What point t writes back is block t of the perceptron of every row of the arrays the region finds. -/
theorem flushed_eq (c : Dev nD) (t : Fin cfg1.N) :
    (dat1 (F := Ideal) V c).flushed 8 t = ((cfg1.win 8).blk t).view.read (Elt Ideal)
      (mlpArrRows (n := 100000) (V c main_arg0) (V c main_v21) (V c main_arg9) (V c main_v22) (V c main_v23) (V c main_v24)
        (V c main_arg13) (V c main_v25)) := by
  show (cfg1.win 8).cut (grid1.coords t) ((dat1 (F := Ideal) V c).after 8 t) = _
  rw [after1_8]
  unfold out1_8
  rw [View.canon_unit_zero zero_offsets]
  simp only [View.ld_unit_zero (S := S4000x128) zero_offsets, View.ld_unit_zero (S := S4000x64) zero_offsets,
    View.ld_unit_zero (S := S192x64) zero_offsets, View.ld_unit_zero (S := S1x64) zero_offsets,
    View.ld_unit_zero (S := S64x64) zero_offsets]
  obtain ⟨-, -, -, -, -, -, -, -, -, -, -, -, -, -, -, -, e0, e1⟩ := index_facts t
  refine funext fun (j : S4000x64.Idx) => ?_
  obtain ⟨r, q, rfl⟩ : ∃ (r : Fin 4000) (q : Fin 64), j = ix2 r q := ⟨j 0, j 1, eq_ix2 j⟩
  have hrow : ((((cfg1.win 8).blk t).view.emb (ix2 r q) : S100000x64.Idx) 0).val = t.val * 4000 + r.val := by
    show win1_8.index t (0 : Fin 2) * 4000 + 1 * r.val = _
    rw [e0]; omega
  have hcol : ((((cfg1.win 8).blk t).view.emb (ix2 r q) : S100000x64.Idx) 1).val = q.val := by
    show win1_8.index t (1 : Fin 2) * 64 + 1 * q.val = _
    rw [e1]; omega
  show k1_pay1 (F := Ideal) (k1_pay2 (iblk1 V c 4 t)) (k1_pay3 (iblk1 V c 5 t))
      (k1_pay4 (iblk1 V c 0 t) (iblk1 V c 1 t) (iblk1 V c 2 t) (iblk1 V c 3 t)) (iblk1 V c 6 t) (iblk1 V c 7 t) (ix2 r q)
    = mlpArrRows (n := 100000) (V c main_arg0) (V c main_v21) (V c main_arg9) (V c main_v22) (V c main_v23) (V c main_v24)
        (V c main_arg13) (V c main_v25) (((cfg1.win 8).blk t).view.emb (ix2 r q))
  refine (block1_apply (iblk1 V c 0 t) (iblk1 V c 1 t) (iblk1 V c 2 t) (iblk1 V c 3 t) (iblk1 V c 4 t) (iblk1 V c 5 t)
    (iblk1 V c 6 t) (iblk1 V c 7 t) r q).trans ?_
  unfold mlpArrRows
  refine mlpRow_congr (fun k => ?_) (fun k => ?_) (fun k j => ?_) (fun j => ?_) (fun j => ?_) (fun j => ?_) (fun k j => ?_)
    (fun j => ?_) ?_
  · exact nodeBlock_apply V c t (ix2 r k) _ hrow rfl
  · exact edgeBlock_apply V c t (ix2 r k) _ hrow rfl
  · exact weight1Block_apply V c t (ix2 k j)
  · exact bias1Block_apply V c t (ix2 0 j)
  · exact scaleBlock_apply V c t (ix2 0 j)
  · exact shiftBlock_apply V c t (ix2 0 j)
  · exact weight2Block_apply V c t (ix2 k j)
  · exact bias2Block_apply V c t (ix2 0 j)
  · exact Fin.ext hcol.symm

/-- An index of the output array is in point t's block iff each coordinate is in the block's range on its axis. -/
theorem mem_block (t : Fin cfg1.N) (i : S100000x64.Idx) :
    i ∈ ((cfg1.win 8).blk t).view.set ↔ ∀ a : Fin 2, win1_8.index t a * S4000x64.size a ≤ (i a).val ∧ (i a).val < win1_8.index t a * S4000x64.size a + S4000x64.size a := by
  show i ∈ ((View.whole main_v26).slice (win1_8.rect t)).set ↔ _
  rw [View.set_slice_whole, Rect.mem_set_unit]
  exact Iff.rfl

/-- Every row of the output array lies in the block of the point (row / 4000). -/
theorem covered (i : S100000x64.Idx) :
    ∃ t : Fin cfg1.N, (cfg1.win 8).flush t = true ∧ i ∈ ((cfg1.win 8).blk t).view.set := by
  have hi0 : (i 0).val < 100000 := (i 0).isLt
  have hi1 : (i 1).val < 64 := (i 1).isLt
  let t : Fin cfg1.N := ⟨(i 0).val / 4000, by rw [grid_size]; omega⟩
  have ht : t.val = (i 0).val / 4000 := rfl
  obtain ⟨-, -, -, -, -, -, -, -, -, -, -, -, -, -, -, -, e0, e1⟩ := index_facts t
  refine ⟨t, flush1_8 t, ?_⟩
  rw [mem_block]
  intro a
  match a with
  | ⟨0, _⟩ => show win1_8.index t (0 : Fin 2) * 4000 ≤ (i 0).val ∧ (i 0).val < win1_8.index t (0 : Fin 2) * 4000 + 4000; rw [e0, ht]; omega
  | ⟨1, _⟩ => show win1_8.index t (1 : Fin 2) * 64 ≤ (i 1).val ∧ (i 1).val < win1_8.index t (1 : Fin 2) * 64 + 64; rw [e1]; omega

/-- The array region 1 leaves in its output window, as one function of the arrays it finds. -/
theorem final1 (c : Dev nD) :
    (dat1 (F := Ideal) V c).arrAt 8 cfg1.N
      = mlpArrRows (n := 100000) (V c main_arg0) (V c main_v21) (V c main_arg9) (V c main_v22) (V c main_v23) (V c main_v24)
          (V c main_arg13) (V c main_v25) :=
  (dat1 (F := Ideal) V c).arrAt_eq_of_cover 8 _ (fun t _ => flushed_eq V c t) covered

end Cert.KernelIdeal.Region1

end
-- ==== Proof.HostDefs.lean ====
/-
  The host-side stretches of the kernel program as functions of whole arrays: the edge list's two rows, the row
  gather with its range test, and the mean of the edge outputs over each destination node.
-/
import proofs.«414315_j2370821947608_1_alg».proof.KernelIdeal

noncomputable section

namespace Cert.KernelIdeal.HostDefs

open Cert.KernelIdeal Cert.KernelIdeal.Facts₀ Cert.KernelIdeal.Facts Idealize.ShloMosaic

variable [Cert.KernelIdeal.Facts]
variable {F : FTy → Type} [FloatOps F]

/-- Row 0 of the [2, 1000000] edge list as a vector: the source node of each edge. -/
def srcOf (a1 : IVec S2x1000000 32) : IVec S1000000 32 :=
  shapeCast S1000000 (extractStridedSlice S1x1000000 ![0, 0] a1 slices_S2x1000000_S1x1000000_0_0) shapeCasts_S1x1000000_S1000000

/-- Row 1 of the edge list: the destination node of each edge. -/
def dstOf (a1 : IVec S2x1000000 32) : IVec S1000000 32 :=
  shapeCast S1000000 (extractStridedSlice S1x1000000 ![1, 0] a1 slices_S2x1000000_S1x1000000_1_0) shapeCasts_S1x1000000_S1000000

/-- The gather's start indices: each source index, a negative one moved up by 100000, as a [1000000, 1] column. -/
def startIdx (a1 : IVec S2x1000000 32) : IVec S1000000x1 32 :=
  broadcastInDim S1000000x1 ![0] bcast_S1000000_S1000000x1_0
    (select (cmpi .slt (srcOf a1) (broadcastInDim S1000000 ![] bcast_S_S1000000 (constantI S_ 32 0#32)))
      (addi (srcOf a1) (broadcastInDim S1000000 ![] bcast_S_S1000000 (constantI S_ 32 100000#32))) (srcOf a1))

/-- The rows of `x` at the start indices. -/
def gatherRows (x : FVec F S100000x128 .f32) (a1 : IVec S2x1000000 32) : FVec F S1000000x128 .f32 :=
  Host.gather gather_S100000x128_S1000000x1_S1000000x128_1_0_n_n_0_1_1128 x (startIdx a1)

/-- What the first kernel is fed: the gathered rows where the start index is in [0, 99999], the fill pattern elsewhere. -/
def takeRows (x : FVec F S100000x128 .f32) (a1 : IVec S2x1000000 32) : FVec F S1000000x128 .f32 :=
  select
    (broadcastInDim S1000000x128 ![0] bcast_S1000000_S1000000x128_0
      (Host.reduce IntOp.andi
        (andi (cmpi .sge (startIdx a1) (broadcastInDim S1000000x1 ![] bcast_S_S1000000x1 (constantI S_ 32 0#32)))
          (cmpi .sle (startIdx a1) (broadcastInDim S1000000x1 ![0, 1] bcast_S1x1_S1000000x1_0_1
            (broadcastInDim S1x1 ![1] bcast_S1_S1x1_1 (constantI S1 32 99999#32)))))
        (constantI S_ 1 1#1) reducesTo_S1000000x1_S1000000_d1 h_S_))
    (gatherRows x a1)
    (broadcastInDim S1000000x128 ![] bcast_S_S1000000x128 (constant S_ .f32 0x7FC00000#32))

/-- The mean over each destination node of the edge outputs `h`: their scattered sum divided by the larger of the
    node's edge count and one. -/
def aggOf (h : FVec F S1000000x64 .f32) (d : IVec S1000000 32) : FVec F S100000x64 .f32 :=
  Host.divf
    (Host.scatterAdd scatter_S100000x64_S1000000x1_S1000000x64_1_0_0_1
      (broadcastInDim S100000x64 ![] bcast_S_S100000x64 (constant S_ .f32 0x00000000#32))
      (broadcastInDim S1000000x1 ![0] bcast_S1000000_S1000000x1_0 d) h)
    (broadcastInDim S100000x64 ![0, 1] bcast_S100000x1_S100000x64_0_1
      (broadcastInDim S100000x1 ![0] bcast_S100000_S100000x1_0
        (maximumf
          (Host.scatterAdd scatter_S100000_S1000000x1_S1000000_n_0_0_1
            (broadcastInDim S100000 ![] bcast_S_S100000 (constant S_ .f32 0x00000000#32))
            (broadcastInDim S1000000x1 ![0] bcast_S1000000_S1000000x1_0 d)
            (broadcastInDim S1000000 ![] bcast_S_S1000000 (constant S_ .f32 0x3F800000#32)))
          (broadcastInDim S100000 ![] bcast_S_S100000 (constant S_ .f32 0x3F800000#32)))))

end Cert.KernelIdeal.HostDefs

end
-- ==== Proof.KernelHost0.lean ====
/-
  What the first kernel finds in the arrays its windows stage: the gathered (and range-tested) node rows, the edge
  attributes and the first perceptron's weights as launched, and its bias, scale and shift vectors reshaped to rows.
-/
import proofs.«414315_j2370821947608_1_alg».proof.Proof.Gen.KernelIdeal.Frame
import proofs.«414315_j2370821947608_1_alg».proof.Proof.HostDefs
import Idealize.ShloMosaic.Lib.StableHlo.Run

set_option maxRecDepth 16384

noncomputable section

namespace Cert.KernelIdeal.Host0

open Cert.KernelIdeal Cert.KernelIdeal.Gen Cert.KernelIdeal.HostDefs
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Contents sent to a buffer's own type and back are unchanged. -/
theorem ofBuf_toBuf {T : BufTy} {Val : EltTy → Type} (r : Ref sig .tc) (h h' : r.ty = T) (a : r.space ≠ .host) (a' : r.space ≠ .host)
    (b : r.isScoped = false) (b' : r.isScoped = false) (v : T.Contents Val) :
    (StableHlo.TRef.of r h a b).ofBuf ((StableHlo.TRef.of r h' a' b').toBuf v) = v := by
  subst h
  simp only [StableHlo.TRef.ofBuf, StableHlo.TRef.toBuf, cast_eq]

set_option maxRecDepth 65536 in
set_option maxHeartbeats 4000000 in
/-- The node rows fed to the first kernel: the called function's operations composed, each value passed on unchanged
    through its buffer. -/
theorem V3_main_v4 (c : Dev nD) :
    V3 m ρ c main_v4 = takeRows (m ((c : Thread nD τ).loc main_arg0)) (m ((c : Thread nD τ).loc main_arg1)) := by
  show StableHlo.after hostOps0_2 (W2 m ρ c) (Proc.devRef .tc main_v4) = _
  after_results_simp
  simp only [ofBuf_toBuf]
  simp only [TRef.ofBuf, TRef.toBuf, cast_eq]
  unfold takeRows gatherRows startIdx srcOf
  rfl

theorem V3_main_arg2 (c : Dev nD) : V3 m ρ c main_arg2 = m ((c : Thread nD τ).loc main_arg2) := by
  show StableHlo.after hostOps0_2 (W2 m ρ c) (Proc.devRef .tc main_arg2) = _
  after_results

theorem V3_main_arg3 (c : Dev nD) : V3 m ρ c main_arg3 = m ((c : Thread nD τ).loc main_arg3) := by
  show StableHlo.after hostOps0_2 (W2 m ρ c) (Proc.devRef .tc main_arg3) = _
  after_results

theorem V3_main_arg7 (c : Dev nD) : V3 m ρ c main_arg7 = m ((c : Thread nD τ).loc main_arg7) := by
  show StableHlo.after hostOps0_2 (W2 m ρ c) (Proc.devRef .tc main_arg7) = _
  after_results

theorem V3_main_v5 (c : Dev nD) : V3 m ρ c main_v5 = shapeCast S1x64 (m ((c : Thread nD τ).loc main_arg4)) shapeCasts_S64_S1x64 := by
  show StableHlo.after hostOps0_2 (W2 m ρ c) (Proc.devRef .tc main_v5) = _
  after_results
  rfl

theorem V3_main_v6 (c : Dev nD) : V3 m ρ c main_v6 = shapeCast S1x64 (m ((c : Thread nD τ).loc main_arg5)) shapeCasts_S64_S1x64 := by
  show StableHlo.after hostOps0_2 (W2 m ρ c) (Proc.devRef .tc main_v6) = _
  after_results
  rfl

theorem V3_main_v7 (c : Dev nD) : V3 m ρ c main_v7 = shapeCast S1x64 (m ((c : Thread nD τ).loc main_arg6)) shapeCasts_S64_S1x64 := by
  show StableHlo.after hostOps0_2 (W2 m ρ c) (Proc.devRef .tc main_v7) = _
  after_results
  rfl

theorem V3_main_v8 (c : Dev nD) : V3 m ρ c main_v8 = shapeCast S1x64 (m ((c : Thread nD τ).loc main_arg8)) shapeCasts_S64_S1x64 := by
  show StableHlo.after hostOps0_2 (W2 m ρ c) (Proc.devRef .tc main_v8) = _
  after_results
  rfl

/-- The destination indices as the first region finds them (no later stretch writes them). -/
theorem W3_main_v3 (c : Dev nD) : W3 m ρ c (Proc.devRef .tc main_v3) = dstOf (m ((c : Thread nD τ).loc main_arg1)) := by
  show StableHlo.after hostOps0_2 (W2 m ρ c) (Proc.devRef .tc main_v3) = _
  after_results
  rfl

/-! Arguments only the second kernel reads: unchanged up to the first region's entry. -/

theorem W3_main_arg0 (c : Dev nD) : W3 m ρ c (Proc.devRef .tc main_arg0) = m ((c : Thread nD τ).loc main_arg0) := by
  show StableHlo.after hostOps0_2 (W2 m ρ c) (Proc.devRef .tc main_arg0) = _
  after_results

theorem W3_main_arg9 (c : Dev nD) : W3 m ρ c (Proc.devRef .tc main_arg9) = m ((c : Thread nD τ).loc main_arg9) := by
  show StableHlo.after hostOps0_2 (W2 m ρ c) (Proc.devRef .tc main_arg9) = _
  after_results

theorem W3_main_arg10 (c : Dev nD) : W3 m ρ c (Proc.devRef .tc main_arg10) = m ((c : Thread nD τ).loc main_arg10) := by
  show StableHlo.after hostOps0_2 (W2 m ρ c) (Proc.devRef .tc main_arg10) = _
  after_results

theorem W3_main_arg11 (c : Dev nD) : W3 m ρ c (Proc.devRef .tc main_arg11) = m ((c : Thread nD τ).loc main_arg11) := by
  show StableHlo.after hostOps0_2 (W2 m ρ c) (Proc.devRef .tc main_arg11) = _
  after_results

theorem W3_main_arg12 (c : Dev nD) : W3 m ρ c (Proc.devRef .tc main_arg12) = m ((c : Thread nD τ).loc main_arg12) := by
  show StableHlo.after hostOps0_2 (W2 m ρ c) (Proc.devRef .tc main_arg12) = _
  after_results

theorem W3_main_arg13 (c : Dev nD) : W3 m ρ c (Proc.devRef .tc main_arg13) = m ((c : Thread nD τ).loc main_arg13) := by
  show StableHlo.after hostOps0_2 (W2 m ρ c) (Proc.devRef .tc main_arg13) = _
  after_results

theorem W3_main_arg14 (c : Dev nD) : W3 m ρ c (Proc.devRef .tc main_arg14) = m ((c : Thread nD τ).loc main_arg14) := by
  show StableHlo.after hostOps0_2 (W2 m ρ c) (Proc.devRef .tc main_arg14) = _
  after_results

end Cert.KernelIdeal.Host0

end
-- ==== Proof.KernelHost1.lean ====
/-
  What the second kernel finds in the arrays its windows stage: the node features and the second perceptron's
  weights as launched, the mean over each destination node of what the first kernel left, and its bias, scale and
  shift vectors reshaped to rows.
-/
import proofs.«414315_j2370821947608_1_alg».proof.Proof.Gen.KernelIdeal.Frame
import proofs.«414315_j2370821947608_1_alg».proof.Proof.HostDefs
import proofs.«414315_j2370821947608_1_alg».proof.Proof.KernelHost0
import Idealize.ShloMosaic.Lib.StableHlo.Run

set_option maxRecDepth 16384

noncomputable section

namespace Cert.KernelIdeal.Host1

open Cert.KernelIdeal Cert.KernelIdeal.Gen Cert.KernelIdeal.HostDefs
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

open Cert.KernelIdeal.Host0

/-- The aggregate fed to the second kernel: the mean over each destination node of the first kernel's output array. -/
theorem V5_main_v21 (c : Dev nD) :
    V5 m ρ c main_v21 = aggOf ((dat0 (V3 m ρ) c).arrAt 8 cfg0.N) (dstOf (m ((c : Thread nD τ).loc main_arg1))) := by
  show StableHlo.after hostOps1 (W4 m ρ c) (Proc.devRef .tc main_v21) = _
  after_results_simp
  rw [show W4 m ρ c (Proc.devRef .tc main_v9) = (dat0 (V3 m ρ) c).arrAt 8 cfg0.N from W4_arr m ρ c 8,
    show W4 m ρ c (Proc.devRef .tc main_v3) = dstOf (m ((c : Thread nD τ).loc main_arg1)) from
      (W4_of_ne m ρ c main_v3 (by decide)).trans (W3_main_v3 m ρ c)]
  rfl

theorem V5_main_arg0 (c : Dev nD) : V5 m ρ c main_arg0 = m ((c : Thread nD τ).loc main_arg0) := by
  show StableHlo.after hostOps1 (W4 m ρ c) (Proc.devRef .tc main_arg0) = _
  after_results
  exact (W4_of_ne m ρ c main_arg0 (by decide)).trans (W3_main_arg0 m ρ c)

theorem V5_main_arg9 (c : Dev nD) : V5 m ρ c main_arg9 = m ((c : Thread nD τ).loc main_arg9) := by
  show StableHlo.after hostOps1 (W4 m ρ c) (Proc.devRef .tc main_arg9) = _
  after_results
  exact (W4_of_ne m ρ c main_arg9 (by decide)).trans (W3_main_arg9 m ρ c)

theorem V5_main_arg13 (c : Dev nD) : V5 m ρ c main_arg13 = m ((c : Thread nD τ).loc main_arg13) := by
  show StableHlo.after hostOps1 (W4 m ρ c) (Proc.devRef .tc main_arg13) = _
  after_results
  exact (W4_of_ne m ρ c main_arg13 (by decide)).trans (W3_main_arg13 m ρ c)

theorem V5_main_v22 (c : Dev nD) : V5 m ρ c main_v22 = shapeCast S1x64 (m ((c : Thread nD τ).loc main_arg10)) shapeCasts_S64_S1x64 := by
  show StableHlo.after hostOps1 (W4 m ρ c) (Proc.devRef .tc main_v22) = _
  after_results
  rw [show W4 m ρ c (Proc.devRef .tc main_arg10) = m ((c : Thread nD τ).loc main_arg10) from
    (W4_of_ne m ρ c main_arg10 (by decide)).trans (W3_main_arg10 m ρ c)]
  rfl

theorem V5_main_v23 (c : Dev nD) : V5 m ρ c main_v23 = shapeCast S1x64 (m ((c : Thread nD τ).loc main_arg11)) shapeCasts_S64_S1x64 := by
  show StableHlo.after hostOps1 (W4 m ρ c) (Proc.devRef .tc main_v23) = _
  after_results
  rw [show W4 m ρ c (Proc.devRef .tc main_arg11) = m ((c : Thread nD τ).loc main_arg11) from
    (W4_of_ne m ρ c main_arg11 (by decide)).trans (W3_main_arg11 m ρ c)]
  rfl

theorem V5_main_v24 (c : Dev nD) : V5 m ρ c main_v24 = shapeCast S1x64 (m ((c : Thread nD τ).loc main_arg12)) shapeCasts_S64_S1x64 := by
  show StableHlo.after hostOps1 (W4 m ρ c) (Proc.devRef .tc main_v24) = _
  after_results
  rw [show W4 m ρ c (Proc.devRef .tc main_arg12) = m ((c : Thread nD τ).loc main_arg12) from
    (W4_of_ne m ρ c main_arg12 (by decide)).trans (W3_main_arg12 m ρ c)]
  rfl

theorem V5_main_v25 (c : Dev nD) : V5 m ρ c main_v25 = shapeCast S1x64 (m ((c : Thread nD τ).loc main_arg14)) shapeCasts_S64_S1x64 := by
  show StableHlo.after hostOps1 (W4 m ρ c) (Proc.devRef .tc main_v25) = _
  after_results
  rw [show W4 m ρ c (Proc.devRef .tc main_arg14) = m ((c : Thread nD τ).loc main_arg14) from
    (W4_of_ne m ρ c main_arg14 (by decide)).trans (W3_main_arg14 m ρ c)]
  rfl

end Cert.KernelIdeal.Host1

end
-- ==== Proof.TakeValue.lean ====
/-
  The kernel program's row gather. jnp.take fills a row whose (wrapped) source index is out of range with a
  not-a-number pattern, by a select on the test 0 ≤ index ≤ 99999. Under the precondition every source index is in
  [0, 100000), so the test holds of every row and the select returns the gathered rows.
-/
import proofs.«414315_j2370821947608_1_alg».proof.Defs
import proofs.«414315_j2370821947608_1_alg».proof.Proof.Gen.KernelIdeal
import proofs.«414315_j2370821947608_1_alg».proof.Proof.Gen.Pre_finite_inputs
import proofs.«414315_j2370821947608_1_alg».proof.Proof.HostDefs
import Idealize.ShloMosaic.Lib.ValueIdx
import Idealize.ShloMosaic.Lib.ReduceAll
import Idealize.ShloMosaic.Lib.StableHlo.Predicate

noncomputable section

namespace Cert.KernelIdeal.TakeValue

open Cert.KernelIdeal Cert.KernelIdeal.Gen Cert.KernelIdeal.HostDefs Idealize.ShloMosaic Idealize.ShloMosaic.TcCoe Idealize.SL.Sem Idealize.ShloMosaic.ValueIdx

variable {F : FTy → Type} [FloatOps F]

/-! ### Signed 32-bit compares against the three literals -/

theorem toInt_lit0 : (0#32 : BitVec 32).toInt = 0 := by decide
theorem toInt_lit100000 : (100000#32 : BitVec 32).toInt = 100000 := by decide
theorem toInt_lit99999 : (99999#32 : BitVec 32).toInt = 99999 := by decide

/-- A non-negative word is not moved up: the wrap's select returns it. -/
theorem wrap_eq (s : BitVec 32) (h0 : IntOp.cmpi .sge s 0#32 = 1#1) :
    Scalar.select (IntOp.cmpi .slt s 0#32) (IntOp.addi s 100000#32) s = s := by
  have h0' := IntOp.cmpi_sge.1 h0
  have hn : ¬ IntOp.cmpi .slt s 0#32 = 1#1 := fun hc => by
    have := IntOp.cmpi_slt.1 hc
    omega
  rw [eq_zero_of_ne_one hn, select_zero]

/-- A word below 100000 is at most 99999. -/
theorem sle_of_slt (s : BitVec 32) (h1 : IntOp.cmpi .slt s 100000#32 = 1#1) : IntOp.cmpi .sle s 99999#32 = 1#1 := by
  have h1' := IntOp.cmpi_slt.1 h1
  rw [toInt_lit100000] at h1'
  rw [IntOp.cmpi_sle, toInt_lit99999]
  omega

/-! ### A reduce by `and` of an all-ones operand from 1 is 1 -/

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = (1#1 : BitVec 1) from rfl]
    exact foldl_andi_one f l fun n hn => h n (List.mem_cons_of_mem _ hn)

theorem reduce_andi_of_all {s t u : Shape} {axes : List (Fin s.rank)} (x : s.Idx → BitVec 1) (init : u.Idx → BitVec 1)
    (hr : s.ReducesTo axes t) (hu : 0 < u.numel) (hx : ∀ i, x i = 1#1) (hi : init (Shape.Idx.first hu) = 1#1) (j : t.Idx) :
    Host.reduce IntOp.andi x init hr hu j = 1#1 := by
  rw [Host.reduce_eq_foldl, hi]
  exact foldl_andi_one x _ fun n _ => hx n

/-- A broadcast of an all-ones array is all ones. -/
theorem bcast_all_one {s t : Shape} (dims : Fin s.rank → Fin t.rank) (hb : s.BroadcastsInDim t dims) (R : s.Idx → BitVec 1)
    (hR : ∀ k, R k = 1#1) (j : t.Idx) : broadcastInDim t dims hb R j = 1#1 := hR _

/-! ### The take under the range hypothesis -/

section
variable (a1 : IVec S2x1000000 32)
  (h : ∀ e : S1000000.Idx, IntOp.cmpi .sge (srcOf a1 e) 0#32 = 1#1 ∧ IntOp.cmpi .slt (srcOf a1 e) 100000#32 = 1#1)
include h

/-- Each start index is one of the source indices, unmoved. -/
theorem startIdx_eq (k : S1000000x1.Idx) : ∃ e : S1000000.Idx, startIdx a1 k = srcOf a1 e :=
  ⟨_, wrap_eq _ (h _).1⟩

/-- The reduced mask is 1 at every row. -/
theorem mask_one (k : S1000000.Idx) :
    Host.reduce IntOp.andi
        (andi (cmpi .sge (startIdx a1) (broadcastInDim S1000000x1 ![] bcast_S_S1000000x1 (constantI S_ 32 0#32)))
          (cmpi .sle (startIdx a1) (broadcastInDim S1000000x1 ![0, 1] bcast_S1x1_S1000000x1_0_1
            (broadcastInDim S1x1 ![1] bcast_S1_S1x1_1 (constantI S1 32 99999#32)))))
        (constantI S_ 1 1#1) reducesTo_S1000000x1_S1000000_d1 h_S_ k = 1#1 := by
  refine reduce_andi_of_all _ _ _ _ (fun i => ?_) rfl k
  obtain ⟨e, he⟩ := startIdx_eq a1 h i
  show IntOp.andi (IntOp.cmpi .sge (startIdx a1 i) 0#32) (IntOp.cmpi .sle (startIdx a1 i) 99999#32) = 1#1
  rw [he, (h e).1, sle_of_slt _ (h e).2]
  rfl

end

/-- With every source index in [0, 100000) the fill never happens. -/
theorem takeRows_eq_gatherRows (x : FVec F S100000x128 .f32) (a1 : IVec S2x1000000 32)
    (h : ∀ e : S1000000.Idx, IntOp.cmpi .sge (srcOf a1 e) 0#32 = 1#1 ∧ IntOp.cmpi .slt (srcOf a1 e) 100000#32 = 1#1) :
    takeRows x a1 = gatherRows x a1 := by
  funext j
  unfold takeRows
  rw [select_apply, bcast_all_one _ _ _ (mask_one a1 h) j, select_one]

/-- The predicate's last part, decoded: its two closing conjuncts are the range of the source indices. -/
theorem part4_decode (a1 : IVec S2x1000000 32) (v63 v67 : IVec Cert.Pre_finite_inputs.S_ 1)
    (e : Cert.Pre_finite_inputs.fn_part4 (F := Ideal) a1 v63 v67 ix0 = 1#1) (i : S1000000.Idx) :
    IntOp.cmpi .sge (srcOf a1 i) 0#32 = 1#1 ∧ IntOp.cmpi .slt (srcOf a1 i) 100000#32 = 1#1 := by
  haveI : Subsingleton Cert.Pre_finite_inputs.S_.Idx := ⟨fun a b => funext fun d => d.elim0⟩
  unfold Cert.Pre_finite_inputs.fn_part4 at e
  obtain ⟨e1, e79⟩ := IntOp.andi_eq_one.1 e
  obtain ⟨_, e73⟩ := IntOp.andi_eq_one.1 e1
  exact ⟨Host.reduce_andi_all _ _ _ _ _ e73 i, Host.reduce_andi_all _ _ _ _ _ e79 i⟩

/-- The precondition, decoded: every source index is in [0, 100000). -/
theorem src_range (m : (ℓ : Loc nD τ sig) → Buf (Elt Ideal) ℓ) (hpre : Cert.Pre_KernelIdeal m) (c : Dev nD) (e : S1000000.Idx) :
    IntOp.cmpi .sge (srcOf (m ((c.tc : Thread nD τ).loc main_arg1)) e) 0#32 = 1#1
      ∧ IntOp.cmpi .slt (srcOf (m ((c.tc : Thread nD τ).loc main_arg1)) e) 100000#32 = 1#1 := by
  have e0 := congrFun (hpre c) ix0
  exact part4_decode _ _ _ e0 e

end Cert.KernelIdeal.TakeValue

end
-- ==== Proof.Bridge.lean ====
/-
  The kernel program's result array in the specification's terms. The first kernel's output is the perceptron of each
  gathered node row joined with its edge's attributes; the host averages it over each destination node; the second
  kernel's output is the perceptron of each node's features joined with its average.
-/
import proofs.«414315_j2370821947608_1_alg».proof.Proof.Region0Value
import proofs.«414315_j2370821947608_1_alg».proof.Proof.Region1Value
import proofs.«414315_j2370821947608_1_alg».proof.Proof.KernelHost0
import proofs.«414315_j2370821947608_1_alg».proof.Proof.KernelHost1
import proofs.«414315_j2370821947608_1_alg».proof.Proof.TakeValue
import proofs.«414315_j2370821947608_1_alg».proof.Proof.HostDefs
import proofs.«414315_j2370821947608_1_alg».proof.Proof.Spec
import Idealize.ShloMosaic.Lib.Pipeline.Value
import Idealize.ShloMosaic.Lib.ValueIdx

set_option maxRecDepth 16384

noncomputable section

namespace Cert.KernelIdeal.Bridge

open Cert.KernelIdeal Cert.KernelIdeal.Gen Cert.KernelIdeal.HostDefs Cert.KernelIdeal.Host0 Cert.KernelIdeal.Host1
open Cert.KernelIdeal.TakeValue Cert.Spec
open Idealize.ShloMosaic Idealize.ShloMosaic.TcCoe Idealize.SL.Sem Idealize.ShloMosaic.ValueIdx

/-- A vector of 64 reshaped to a [1, 64] row reads, at (0, j), the vector at j. -/
theorem row_apply (b : FVec Ideal S64 .f32) (j : Fin 64) :
    shapeCast S1x64 b shapeCasts_S64_S1x64 (ix2 0 j) = b (ix1 j) :=
  shapeCast_apply b shapeCasts_S64_S1x64 (ix2 0 j) (ix1 j)
    (by rewrite [Shape.rowMajor_val_two, Shape.rowMajor_val_one]; show j.val = 0 * 64 + j.val; omega)

/-- With its bias, scale and shift rows the reshaped vectors, the row form of the perceptron is the vector form. -/
theorem mlpArrRows_reshape {n : Nat} (A : (⟨2, ![n, 128]⟩ : Shape).Idx → EReal) (B : (⟨2, ![n, 64]⟩ : Shape).Idx → EReal)
    (W : (⟨2, ![192, 64]⟩ : Shape).Idx → EReal) (b1 g be : FVec Ideal S64 .f32) (W' : (⟨2, ![64, 64]⟩ : Shape).Idx → EReal)
    (b' : FVec Ideal S64 .f32) :
    mlpArrRows A B W (shapeCast S1x64 b1 shapeCasts_S64_S1x64) (shapeCast S1x64 g shapeCasts_S64_S1x64)
        (shapeCast S1x64 be shapeCasts_S64_S1x64) W' (shapeCast S1x64 b' shapeCasts_S64_S1x64)
      = mlpArr A B W b1 g be W' b' := by
  funext i
  unfold mlpArrRows mlpArr
  simp only [row_apply]

variable (m : (ℓ : Loc nD τ sig) → Buf (Elt Ideal) ℓ) (ρ : Dev nD → PrngReg)

/-- What the first kernel leaves: the perceptron of each gathered row and its edge's attributes. -/
theorem edge_array (hpre : Cert.Pre_KernelIdeal m) (c : Dev nD) :
    (dat0 (F := Ideal) (V3 m ρ) c).arrAt 8 cfg0.N
      = mlpArr (n := 1000000) (gatherRows (F := Ideal) (m ((c.tc : Thread nD τ).loc main_arg0)) (m ((c.tc : Thread nD τ).loc main_arg1)))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) := by
  rw [Region0.final0, V3_main_v4, V3_main_arg2, V3_main_arg3, V3_main_arg7, V3_main_v5, V3_main_v6, V3_main_v7, V3_main_v8,
    takeRows_eq_gatherRows _ _ (src_range m hpre c), mlpArrRows_reshape]

/-- The kernel program's result array. -/
theorem result_array (hpre : Cert.Pre_KernelIdeal m) (c : Dev nD) :
    W6 m ρ c (Proc.devRef .tc main_v26)
      = mlpArr (n := 100000) (m ((c.tc : Thread nD τ).loc main_arg0))
          (aggOf (F := Ideal) (mlpArr (n := 1000000) (gatherRows (F := Ideal) (m ((c.tc : Thread nD τ).loc main_arg0)) (m ((c.tc : Thread nD τ).loc main_arg1)))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7))
              (m ((c.tc : Thread nD τ).loc main_arg8)))
            (dstOf (m ((c.tc : Thread nD τ).loc main_arg1))))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) := by
  rw [show W6 m ρ c (Proc.devRef .tc main_v26) = (dat1 (F := Ideal) (V5 m ρ) c).arrAt 8 cfg1.N from W6_arr m ρ c 8,
    Region1.final1, V5_main_arg0, V5_main_v21, V5_main_arg9, V5_main_arg13, V5_main_v22, V5_main_v23, V5_main_v24, V5_main_v25,
    edge_array m ρ hpre c, mlpArrRows_reshape]

end Cert.KernelIdeal.Bridge

end
-- ==== Proof.RefRun.lean ====
/-
  The reference program's run: every weakly fair execution ends, nothing faulting, with its result buffer at the
  composition of its 119 operations' values of the arguments and the arguments unchanged. The operations are
  composed window by window, each window's value stated over the buffers it finds.
-/
import proofs.«414315_j2370821947608_1_alg».proof.Proof.RefOps
import proofs.«414315_j2370821947608_1_alg».proof.Proof.RefReadP

noncomputable section

namespace Cert.ReferenceIdeal.RefRun

open Cert.ReferenceIdeal Cert.ReferenceIdeal.Gen Cert.ReferenceIdeal.RunW Cert.ReferenceIdeal.ReadP
open Idealize.ShloMosaic Idealize.ShloMosaic.TcCoe Idealize.SL.Sem Idealize.ShloMosaic.StableHlo

variable {F : FTy → Type} [FloatOps F]

/-- The fold over two lists in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The arguments are written by no operation -/

/-- @main's fifteen arguments. -/
def argRefs : List (Ref sig .tc) :=
  [main_arg0, main_arg1, main_arg2, main_arg3, main_arg4, main_arg5, main_arg6, main_arg7, main_arg8, main_arg9,
    main_arg10, main_arg11, main_arg12, main_arg13, main_arg14]

/-- A list of operations that leaves every argument's buffer as it finds it. -/
def Keeps (l : List (HloOp τ sig (Elt F))) : Prop :=
  ∀ (W : Valuation τ sig (Elt F)) (b : Ref sig .tc), b ∈ argRefs → after l W (Proc.devRef .tc b) = W (Proc.devRef .tc b)

theorem Keeps.append {l₁ l₂ : List (HloOp τ sig (Elt F))} (h₁ : Keeps l₁) (h₂ : Keeps l₂) : Keeps (l₁ ++ l₂) :=
  fun W b hb => by rw [after_app, h₂ _ b hb, h₁ W b hb]

set_option maxHeartbeats 1600000 in
theorem Keeps.at {l : List (HloOp τ sig (Elt F))} (h : Keeps l) {W W' : Valuation τ sig (Elt F)}
    (hW : ∀ b ∈ argRefs, W (Proc.devRef .tc b) = W' (Proc.devRef .tc b)) :
    ∀ b ∈ argRefs, after l W (Proc.devRef .tc b) = W' (Proc.devRef .tc b) :=
  fun b hb => (h W b hb).trans (hW b hb)

set_option maxHeartbeats 1600000 in
theorem keepsA : Keeps (F := F) opsA := by
  intro W b hb
  simp only [argRefs, List.mem_cons, List.not_mem_nil, or_false] at hb
  rcases hb with rfl | rfl | rfl | rfl | rfl | rfl | rfl | rfl | rfl | rfl | rfl | rfl | rfl | rfl | rfl <;> after_results_simp

set_option maxHeartbeats 1600000 in
theorem keepsB : Keeps (F := F) opsB := by
  intro W b hb
  simp only [argRefs, List.mem_cons, List.not_mem_nil, or_false] at hb
  rcases hb with rfl | rfl | rfl | rfl | rfl | rfl | rfl | rfl | rfl | rfl | rfl | rfl | rfl | rfl | rfl <;> after_results_simp

set_option maxHeartbeats 1600000 in
theorem keepsC : Keeps (F := F) opsC := by
  intro W b hb
  simp only [argRefs, List.mem_cons, List.not_mem_nil, or_false] at hb
  rcases hb with rfl | rfl | rfl | rfl | rfl | rfl | rfl | rfl | rfl | rfl | rfl | rfl | rfl | rfl | rfl <;> after_results_simp

set_option maxHeartbeats 1600000 in
theorem keepsD : Keeps (F := F) opsD := by
  intro W b hb
  simp only [argRefs, List.mem_cons, List.not_mem_nil, or_false] at hb
  rcases hb with rfl | rfl | rfl | rfl | rfl | rfl | rfl | rfl | rfl | rfl | rfl | rfl | rfl | rfl | rfl <;> after_results_simp

set_option maxHeartbeats 1600000 in
theorem keepsE : Keeps (F := F) opsE := by
  intro W b hb
  simp only [argRefs, List.mem_cons, List.not_mem_nil, or_false] at hb
  rcases hb with rfl | rfl | rfl | rfl | rfl | rfl | rfl | rfl | rfl | rfl | rfl | rfl | rfl | rfl | rfl <;> after_results_simp

set_option maxHeartbeats 1600000 in
theorem keepsF : Keeps (F := F) opsF := by
  intro W b hb
  simp only [argRefs, List.mem_cons, List.not_mem_nil, or_false] at hb
  rcases hb with rfl | rfl | rfl | rfl | rfl | rfl | rfl | rfl | rfl | rfl | rfl | rfl | rfl | rfl | rfl <;> after_results_simp

set_option maxHeartbeats 1600000 in
theorem keepsG : Keeps (F := F) opsG := by
  intro W b hb
  simp only [argRefs, List.mem_cons, List.not_mem_nil, or_false] at hb
  rcases hb with rfl | rfl | rfl | rfl | rfl | rfl | rfl | rfl | rfl | rfl | rfl | rfl | rfl | rfl | rfl <;> after_results_simp

set_option maxHeartbeats 1600000 in
theorem keepsH : Keeps (F := F) opsH := by
  intro W b hb
  simp only [argRefs, List.mem_cons, List.not_mem_nil, or_false] at hb
  rcases hb with rfl | rfl | rfl | rfl | rfl | rfl | rfl | rfl | rfl | rfl | rfl | rfl | rfl | rfl | rfl <;> after_results_simp

theorem keeps_ops : Keeps (F := F) ops := by
  rw [ops_eq]
  exact keepsA.append (keepsB.append (keepsC.append (keepsD.append (keepsE.append (keepsF.append (keepsG.append keepsH))))))

/-! ## The windows, each over the buffers it finds -/

theorem winA_v10 (W : Valuation τ sig (Elt F)) :
    after opsA W (Proc.devRef .tc main_v10) = val_main_v10 (F := F) (W (Proc.devRef .tc main_arg0)) (W (Proc.devRef .tc main_arg1)) := by
  after_results_simp
  rfl

theorem winA_v3 (W : Valuation τ sig (Elt F)) :
    after opsA W (Proc.devRef .tc main_v3) = val_main_v3 (F := F) (W (Proc.devRef .tc main_arg1)) := by
  after_results_simp
  rfl

theorem keepB_v3 (W : Valuation τ sig (Elt F)) :
    after opsB W (Proc.devRef .tc main_v3) = W (Proc.devRef .tc main_v3) := by
  after_results_simp

theorem keepC_v3 (W : Valuation τ sig (Elt F)) :
    after opsC W (Proc.devRef .tc main_v3) = W (Proc.devRef .tc main_v3) := by
  after_results_simp

theorem keepD_v3 (W : Valuation τ sig (Elt F)) :
    after opsD W (Proc.devRef .tc main_v3) = W (Proc.devRef .tc main_v3) := by
  after_results_simp

theorem winB (W : Valuation τ sig (Elt F)) (x0 : (⟨S100000x128, .f32⟩ : BufTy).Contents (Elt F)) (x1 : (⟨S2x1000000, .i32⟩ : BufTy).Contents (Elt F)) (x2 : (⟨S1000000x64, .f32⟩ : BufTy).Contents (Elt F)) (x3 : (⟨S192x64, .f32⟩ : BufTy).Contents (Elt F)) (x4 : (⟨S64, .f32⟩ : BufTy).Contents (Elt F))
    (h_v10 : W (Proc.devRef .tc main_v10) = val_main_v10 (F := F) x0 x1)
    (h_a2 : W (Proc.devRef .tc main_arg2) = x2)
    (h_a3 : W (Proc.devRef .tc main_arg3) = x3)
    (h_a4 : W (Proc.devRef .tc main_arg4) = x4) :
    after opsB W (Proc.devRef .tc main_v20) = val_main_v20 (F := F) x0 x1 x2 x3 x4 := by
  after_results_simp
  simp only [TRef.ofBuf, TRef.toBuf, cast_eq]
  rw [h_v10, h_a2, h_a3, h_a4]
  rfl

theorem winC (W : Valuation τ sig (Elt F)) (x0 : (⟨S100000x128, .f32⟩ : BufTy).Contents (Elt F)) (x1 : (⟨S2x1000000, .i32⟩ : BufTy).Contents (Elt F)) (x2 : (⟨S1000000x64, .f32⟩ : BufTy).Contents (Elt F)) (x3 : (⟨S192x64, .f32⟩ : BufTy).Contents (Elt F)) (x4 : (⟨S64, .f32⟩ : BufTy).Contents (Elt F))
    (h_v20 : W (Proc.devRef .tc main_v20) = val_main_v20 (F := F) x0 x1 x2 x3 x4) :
    after opsC W (Proc.devRef .tc main_v38) = val_main_v38 (F := F) x0 x1 x2 x3 x4 := by
  after_results_simp
  rw [h_v20]
  rfl

theorem winD (W : Valuation τ sig (Elt F)) (x0 : (⟨S100000x128, .f32⟩ : BufTy).Contents (Elt F)) (x1 : (⟨S2x1000000, .i32⟩ : BufTy).Contents (Elt F)) (x2 : (⟨S1000000x64, .f32⟩ : BufTy).Contents (Elt F)) (x3 : (⟨S192x64, .f32⟩ : BufTy).Contents (Elt F)) (x4 : (⟨S64, .f32⟩ : BufTy).Contents (Elt F)) (x5 : (⟨S64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F))
    (h_v38 : W (Proc.devRef .tc main_v38) = val_main_v38 (F := F) x0 x1 x2 x3 x4)
    (h_a5 : W (Proc.devRef .tc main_arg5) = x5)
    (h_a6 : W (Proc.devRef .tc main_arg6) = x6)
    (h_a7 : W (Proc.devRef .tc main_arg7) = x7)
    (h_a8 : W (Proc.devRef .tc main_arg8) = x8) :
    after opsD W (Proc.devRef .tc main_v48) = val_main_v48 (F := F) x0 x1 x2 x3 x4 x5 x6 x7 x8 := by
  after_results_simp
  rw [h_v38, h_a5, h_a6, h_a7, h_a8]
  rfl

theorem winE (W : Valuation τ sig (Elt F)) (x0 : (⟨S100000x128, .f32⟩ : BufTy).Contents (Elt F)) (x1 : (⟨S2x1000000, .i32⟩ : BufTy).Contents (Elt F)) (x2 : (⟨S1000000x64, .f32⟩ : BufTy).Contents (Elt F)) (x3 : (⟨S192x64, .f32⟩ : BufTy).Contents (Elt F)) (x4 : (⟨S64, .f32⟩ : BufTy).Contents (Elt F)) (x5 : (⟨S64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F))
    (h_v48 : W (Proc.devRef .tc main_v48) = val_main_v48 (F := F) x0 x1 x2 x3 x4 x5 x6 x7 x8)
    (h_v3 : W (Proc.devRef .tc main_v3) = val_main_v3 (F := F) x1) :
    after opsE W (Proc.devRef .tc main_v60) = val_main_v60 (F := F) x0 x1 x2 x3 x4 x5 x6 x7 x8 := by
  after_results_simp
  rw [h_v48, h_v3]
  rfl

theorem winF (W : Valuation τ sig (Elt F)) (x0 : (⟨S100000x128, .f32⟩ : BufTy).Contents (Elt F)) (x1 : (⟨S2x1000000, .i32⟩ : BufTy).Contents (Elt F)) (x2 : (⟨S1000000x64, .f32⟩ : BufTy).Contents (Elt F)) (x3 : (⟨S192x64, .f32⟩ : BufTy).Contents (Elt F)) (x4 : (⟨S64, .f32⟩ : BufTy).Contents (Elt F)) (x5 : (⟨S64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S192x64, .f32⟩ : BufTy).Contents (Elt F)) (x10 : (⟨S64, .f32⟩ : BufTy).Contents (Elt F))
    (h_v60 : W (Proc.devRef .tc main_v60) = val_main_v60 (F := F) x0 x1 x2 x3 x4 x5 x6 x7 x8)
    (h_a0 : W (Proc.devRef .tc main_arg0) = x0)
    (h_a9 : W (Proc.devRef .tc main_arg9) = x9)
    (h_a10 : W (Proc.devRef .tc main_arg10) = x10) :
    after opsF W (Proc.devRef .tc main_v70) = val_main_v70 (F := F) x0 x1 x2 x3 x4 x5 x6 x7 x8 x9 x10 := by
  after_results_simp
  simp only [TRef.ofBuf, TRef.toBuf, cast_eq]
  rw [h_v60, h_a0, h_a9, h_a10]
  rfl

theorem winG (W : Valuation τ sig (Elt F)) (x0 : (⟨S100000x128, .f32⟩ : BufTy).Contents (Elt F)) (x1 : (⟨S2x1000000, .i32⟩ : BufTy).Contents (Elt F)) (x2 : (⟨S1000000x64, .f32⟩ : BufTy).Contents (Elt F)) (x3 : (⟨S192x64, .f32⟩ : BufTy).Contents (Elt F)) (x4 : (⟨S64, .f32⟩ : BufTy).Contents (Elt F)) (x5 : (⟨S64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S192x64, .f32⟩ : BufTy).Contents (Elt F)) (x10 : (⟨S64, .f32⟩ : BufTy).Contents (Elt F))
    (h_v70 : W (Proc.devRef .tc main_v70) = val_main_v70 (F := F) x0 x1 x2 x3 x4 x5 x6 x7 x8 x9 x10) :
    after opsG W (Proc.devRef .tc main_v88) = val_main_v88 (F := F) x0 x1 x2 x3 x4 x5 x6 x7 x8 x9 x10 := by
  after_results_simp
  rw [h_v70]
  rfl

theorem winH (W : Valuation τ sig (Elt F)) (x0 : (⟨S100000x128, .f32⟩ : BufTy).Contents (Elt F)) (x1 : (⟨S2x1000000, .i32⟩ : BufTy).Contents (Elt F)) (x2 : (⟨S1000000x64, .f32⟩ : BufTy).Contents (Elt F)) (x3 : (⟨S192x64, .f32⟩ : BufTy).Contents (Elt F)) (x4 : (⟨S64, .f32⟩ : BufTy).Contents (Elt F)) (x5 : (⟨S64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S192x64, .f32⟩ : BufTy).Contents (Elt F)) (x10 : (⟨S64, .f32⟩ : BufTy).Contents (Elt F)) (x11 : (⟨S64, .f32⟩ : BufTy).Contents (Elt F)) (x12 : (⟨S64, .f32⟩ : BufTy).Contents (Elt F)) (x13 : (⟨S64x64, .f32⟩ : BufTy).Contents (Elt F)) (x14 : (⟨S64, .f32⟩ : BufTy).Contents (Elt F))
    (h_v88 : W (Proc.devRef .tc main_v88) = val_main_v88 (F := F) x0 x1 x2 x3 x4 x5 x6 x7 x8 x9 x10)
    (h_a11 : W (Proc.devRef .tc main_arg11) = x11)
    (h_a12 : W (Proc.devRef .tc main_arg12) = x12)
    (h_a13 : W (Proc.devRef .tc main_arg13) = x13)
    (h_a14 : W (Proc.devRef .tc main_arg14) = x14) :
    after opsH W (Proc.devRef .tc main_v98) = val_main_v98 (F := F) x0 x1 x2 x3 x4 x5 x6 x7 x8 x9 x10 x11 x12 x13 x14 := by
  after_results_simp
  rw [h_v88, h_a11, h_a12, h_a13, h_a14]
  rfl

/-! ## The windows in a row -/
theorem mem_arg0 : main_arg0 ∈ argRefs := by decide
theorem mem_arg1 : main_arg1 ∈ argRefs := by decide
theorem mem_arg2 : main_arg2 ∈ argRefs := by decide
theorem mem_arg3 : main_arg3 ∈ argRefs := by decide
theorem mem_arg4 : main_arg4 ∈ argRefs := by decide
theorem mem_arg5 : main_arg5 ∈ argRefs := by decide
theorem mem_arg6 : main_arg6 ∈ argRefs := by decide
theorem mem_arg7 : main_arg7 ∈ argRefs := by decide
theorem mem_arg8 : main_arg8 ∈ argRefs := by decide
theorem mem_arg9 : main_arg9 ∈ argRefs := by decide
theorem mem_arg10 : main_arg10 ∈ argRefs := by decide
theorem mem_arg11 : main_arg11 ∈ argRefs := by decide
theorem mem_arg12 : main_arg12 ∈ argRefs := by decide
theorem mem_arg13 : main_arg13 ∈ argRefs := by decide
theorem mem_arg14 : main_arg14 ∈ argRefs := by decide

/-- The result buffer after the 119 operations, from any contents: the last stage of the arguments found. -/
theorem after_ops_v98 (W : Valuation τ sig (Elt F)) :
    after ops W (Proc.devRef .tc main_v98) = val_main_v98 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) := by
  rw [ops_eq]
  simp only [after_app]
  have k1 := (keepsA (F := F)).at (W := W) (W' := W) (fun _ _ => rfl)
  have a10 := winA_v10 W
  have a3 := winA_v3 W
  have k2 := (keepsB (F := F)).at k1
  have b20 := winB _ _ _ _ _ _ a10 (k1 _ mem_arg2) (k1 _ mem_arg3) (k1 _ mem_arg4)
  have b3 := (keepB_v3 _).trans a3
  have k3 := (keepsC (F := F)).at k2
  have c38 := winC _ _ _ _ _ _ b20
  have c3 := (keepC_v3 _).trans b3
  have k4 := (keepsD (F := F)).at k3
  have d48 := winD _ _ _ _ _ _ _ _ _ _ c38 (k3 _ mem_arg5) (k3 _ mem_arg6) (k3 _ mem_arg7) (k3 _ mem_arg8)
  have d3 := (keepD_v3 _).trans c3
  have k5 := (keepsE (F := F)).at k4
  have e60 := winE _ _ _ _ _ _ _ _ _ _ d48 d3
  have k6 := (keepsF (F := F)).at k5
  have f70 := winF _ _ _ _ _ _ _ _ _ _ _ _ e60 (k5 _ mem_arg0) (k5 _ mem_arg9) (k5 _ mem_arg10)
  have k7 := (keepsG (F := F)).at k6
  have g88 := winG _ _ _ _ _ _ _ _ _ _ _ _ f70
  exact winH _ _ _ _ _ _ _ _ _ _ _ _ _ _ _ _ g88 (k7 _ mem_arg11) (k7 _ mem_arg12) (k7 _ mem_arg13) (k7 _ mem_arg14)

/-! ## No operation allocates -/

theorem freshA : ∀ op ∈ (opsA : List (HloOp τ sig (Elt F))), op.fresh = ∅ := by
  intro _ h; (repeat (cases h with | head => rfl | tail _ h => ?_)); exact nomatch h

theorem freshB : ∀ op ∈ (opsB : List (HloOp τ sig (Elt F))), op.fresh = ∅ := by
  intro _ h; (repeat (cases h with | head => rfl | tail _ h => ?_)); exact nomatch h

theorem freshC : ∀ op ∈ (opsC : List (HloOp τ sig (Elt F))), op.fresh = ∅ := by
  intro _ h; (repeat (cases h with | head => rfl | tail _ h => ?_)); exact nomatch h

theorem freshD : ∀ op ∈ (opsD : List (HloOp τ sig (Elt F))), op.fresh = ∅ := by
  intro _ h; (repeat (cases h with | head => rfl | tail _ h => ?_)); exact nomatch h

theorem freshE : ∀ op ∈ (opsE : List (HloOp τ sig (Elt F))), op.fresh = ∅ := by
  intro _ h; (repeat (cases h with | head => rfl | tail _ h => ?_)); exact nomatch h

theorem freshF : ∀ op ∈ (opsF : List (HloOp τ sig (Elt F))), op.fresh = ∅ := by
  intro _ h; (repeat (cases h with | head => rfl | tail _ h => ?_)); exact nomatch h

theorem freshG : ∀ op ∈ (opsG : List (HloOp τ sig (Elt F))), op.fresh = ∅ := by
  intro _ h; (repeat (cases h with | head => rfl | tail _ h => ?_)); exact nomatch h

theorem freshH : ∀ op ∈ (opsH : List (HloOp τ sig (Elt F))), op.fresh = ∅ := by
  intro _ h; (repeat (cases h with | head => rfl | tail _ h => ?_)); exact nomatch h

theorem fresh_ops : ∀ op ∈ (ops : List (HloOp τ sig (Elt F))), op.fresh = ∅ := by
  intro op h
  rw [ops_eq] at h
  simp only [List.mem_append] at h
  rcases h with h | h | h | h | h | h | h | h
  exacts [freshA op h, freshB op h, freshC op h, freshD op h, freshE op h, freshF op h, freshG op h, freshH op h]

/-- The reference's run, its result named by the stages' composition. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v98) = val_main_v98 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v98).trans (after_ops_v98 _),
      (h c main_arg0).trans (keeps_ops _ _ mem_arg0),
      (h c main_arg1).trans (keeps_ops _ _ mem_arg1),
      (h c main_arg2).trans (keeps_ops _ _ mem_arg2),
      (h c main_arg3).trans (keeps_ops _ _ mem_arg3),
      (h c main_arg4).trans (keeps_ops _ _ mem_arg4),
      (h c main_arg5).trans (keeps_ops _ _ mem_arg5),
      (h c main_arg6).trans (keeps_ops _ _ mem_arg6),
      (h c main_arg7).trans (keeps_ops _ _ mem_arg7),
      (h c main_arg8).trans (keeps_ops _ _ mem_arg8),
      (h c main_arg9).trans (keeps_ops _ _ mem_arg9),
      (h c main_arg10).trans (keeps_ops _ _ mem_arg10),
      (h c main_arg11).trans (keeps_ops _ _ mem_arg11),
      (h c main_arg12).trans (keeps_ops _ _ mem_arg12),
      (h c main_arg13).trans (keeps_ops _ _ mem_arg13),
      (h c main_arg14).trans (keeps_ops _ _ mem_arg14)⟩)
    (run_seq scopedRefs_eq scopedSems_eq defs main (fun _ => ops) main_eq (fun _ => ops_sub) m ρ (fun _ => fresh_ops))

end Cert.ReferenceIdeal.RefRun

end
-- ==== Proof.RefEdge.lean ====
/-
  The reference's edge stage: the array it scatters is the perceptron of each gathered row joined with the edge's attributes.
-/
import proofs.«414315_j2370821947608_1_alg».proof.Proof.RefReadP
import proofs.«414315_j2370821947608_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefEdge

open Cert.ReferenceIdeal Cert.ReferenceIdeal.Gen Cert.ReferenceIdeal.ReadP Idealize.ShloMosaic Idealize.ShloMosaic.ValueIdx Cert.Spec

section Stages

variable (x0 : (⟨S100000x128, .f32⟩ : BufTy).Contents (Elt Ideal)) (x1 : (⟨S2x1000000, .i32⟩ : BufTy).Contents (Elt Ideal))
    (x2 : (⟨S1000000x64, .f32⟩ : BufTy).Contents (Elt Ideal)) (x3 : (⟨S192x64, .f32⟩ : BufTy).Contents (Elt Ideal))
    (x4 x5 x6 : (⟨S64, .f32⟩ : BufTy).Contents (Elt Ideal)) (x7 : (⟨S64x64, .f32⟩ : BufTy).Contents (Elt Ideal))
    (x8 : (⟨S64, .f32⟩ : BufTy).Contents (Elt Ideal))

/-- Row `e` of the gathered node features. -/
def rowA (e : Fin 1000000) : Fin 128 → EReal := fun k => val_main_v10 (F := Ideal) x0 x1 (ix2 e k)

/-- Row `e` of the edge attributes. -/
def rowB (e : Fin 1000000) : Fin 64 → EReal := fun k => x2 (ix2 e k)

/-- A vector of 64 read as a function of its coordinate. -/
def vec (x : (⟨S64, .f32⟩ : BufTy).Contents (Elt Ideal)) : Fin 64 → EReal := fun j => x (ix1 j)

/-- The first layer's weights read as a function of their two coordinates. -/
def mat1 : Fin 192 → Fin 64 → EReal := fun k j => x3 (ix2 k j)

/-- The activated first layer of row `e`. -/
def hid (e : Fin 1000000) : Fin 64 → EReal := hidden (rowA x0 x1 e) (rowB x2 e) (mat1 x3) (vec x4)

/-- The joined array at row `e`, column `k`, is the join of the two rows. -/
theorem v11_at (e : Fin 1000000) (k : Fin 192) :
    val_main_v11 (F := Ideal) x0 x1 x2 (ix2 e k) = cat (rowA x0 x1 e) (rowB x2 e) k := by
  unfold val_main_v11 rowA rowB
  generalize val_main_v10 (F := Ideal) x0 x1 = A
  unfold cat
  by_cases h : k.val < 128
  · rw [dif_pos h]
    exact concatenate_pair_apply_left (t := S1000000x192) (s₁ := S1000000x128) (s₂ := S1000000x64) 1 A x2
      concatenates_S1000000x128_S1000000x64_S1000000x192_d1 (ix2 e k) rfl (ix2 e ⟨k.val, h⟩)
      (fun b => match b with | ⟨0, _⟩ => rfl | ⟨1, _⟩ => rfl)
  · rw [dif_neg h]
    exact concatenate_pair_apply_right (t := S1000000x192) (s₁ := S1000000x128) (s₂ := S1000000x64) 1 A x2
      concatenates_S1000000x128_S1000000x64_S1000000x192_d1 (ix2 e k) rfl rfl
      (ix2 e ⟨k.val - 128, by have := k.isLt; omega⟩)
      (fun b hb => match b, hb with | ⟨0, _⟩, _ => rfl | ⟨1, _⟩, hb => absurd rfl hb)
      (by show (k.val - 128) + 128 = k.val; omega)

/-- The first layer before the activation: the product with the weights plus the bias. -/
theorem v15_at (e : Fin 1000000) (j : Fin 64) :
    val_main_v15 (F := Ideal) x0 x1 x2 x3 x4 (ix2 e j)
      = (∑ k : Fin 192, cat (rowA x0 x1 e) (rowB x2 e) k * mat1 x3 k j) + vec x4 j := by
  have e3 : idx_main_v13 (idx_main_v14 (ix2 e j)) = ix1 j := funext fun a => Fin.ext (by match a with | ⟨0, _⟩ => rfl)
  rw [val_main_v15_apply, val_main_v12_apply, val_main_v14_apply, val_main_v13_apply, Ideal.addf_def, e3]
  refine congrArg (· + vec x4 j) (Finset.sum_congr rfl fun k _ => ?_)
  have e1 : lidx_main_v12 (ix2 e j) k = ix2 e k := funext fun a => Fin.ext (by match a with | ⟨0, _⟩ => rfl | ⟨1, _⟩ => rfl)
  have e2 : ridx_main_v12 (ix2 e j) k = ix2 k j := funext fun a => Fin.ext (by match a with | ⟨0, _⟩ => rfl | ⟨1, _⟩ => rfl)
  rw [e1, e2, v11_at]
  rfl

/-- The activated first layer. -/
theorem v20_at (e : Fin 1000000) (j : Fin 64) :
    val_main_v20 (F := Ideal) x0 x1 x2 x3 x4 (ix2 e j) = hid x0 x1 x2 x3 x4 e j := by
  rw [val_main_v20_apply, val_main_v17_apply, val_main_v19_apply, val_main_v16_apply, val_main_v18_apply,
    val_main_cst_apply, val_main_cst_1_apply, v15_at]
  simp only [Ideal.cmpf_def, Ideal.mulf_def, Ideal.ofBits_def]
  rfl

/-- The row sum of the activated first layer. -/
theorem v21_at (e : Fin 1000000) :
    val_main_v21 (F := Ideal) x0 x1 x2 x3 x4 (ix1 e) = ∑ k : Fin 64, hid x0 x1 x2 x3 x4 e k := by
  rw [val_main_v21_apply, val_main_cst_2_apply, Ideal.ofBits_def, Ideal.ofBits_zero_f32, zero_add]
  refine Finset.sum_congr rfl fun k _ => ?_
  have e1 : idx_main_v21 (ix1 e) k = ix2 e k := funext fun a => Fin.ext (by match a with | ⟨0, _⟩ => rfl | ⟨1, _⟩ => rfl)
  rw [e1, v20_at]

/-- The row mean of the activated first layer. -/
theorem v24_at (e : Fin 1000000) :
    val_main_v24 (F := Ideal) x0 x1 x2 x3 x4 (ix2 e (0 : Fin 1)) = mean64 (hid x0 x1 x2 x3 x4 e) := by
  have e1 : idx_main_v22 (ix2 e (0 : Fin 1)) = ix1 e := funext fun a => Fin.ext (by match a with | ⟨0, _⟩ => rfl)
  rw [val_main_v24_apply, val_main_v22_apply, val_main_v23_apply, val_main_cst_3_apply, Ideal.hostDivf_def,
    Ideal.ofBits_def, e1, v21_at]
  rfl

/-- The deviation from the row mean (the copy the variance is taken of). -/
theorem v26_at (e : Fin 1000000) (j : Fin 64) :
    val_main_v26 (F := Ideal) x0 x1 x2 x3 x4 (ix2 e j) = dev (hid x0 x1 x2 x3 x4 e) j := by
  have e1 : idx_main_v25 (ix2 e j) = ix2 e (0 : Fin 1) := funext fun a => Fin.ext (by match a with | ⟨0, _⟩ => rfl | ⟨1, _⟩ => rfl)
  rw [val_main_v26_apply, val_main_v25_apply, Ideal.subf_def, v20_at, e1, v24_at]
  rfl

/-- The deviation from the row mean (the copy that is normalised). -/
theorem v33_at (e : Fin 1000000) (j : Fin 64) :
    val_main_v33 (F := Ideal) x0 x1 x2 x3 x4 (ix2 e j) = dev (hid x0 x1 x2 x3 x4 e) j := by
  have e1 : idx_main_v32 (ix2 e j) = ix2 e (0 : Fin 1) := funext fun a => Fin.ext (by match a with | ⟨0, _⟩ => rfl | ⟨1, _⟩ => rfl)
  rw [val_main_v33_apply, val_main_v32_apply, Ideal.subf_def, v20_at, e1, v24_at]
  rfl

/-- The row sum of the squared deviations. -/
theorem v28_at (e : Fin 1000000) :
    val_main_v28 (F := Ideal) x0 x1 x2 x3 x4 (ix1 e)
      = ∑ k : Fin 64, dev (hid x0 x1 x2 x3 x4 e) k * dev (hid x0 x1 x2 x3 x4 e) k := by
  rw [val_main_v28_apply, val_main_cst_4_apply, Ideal.ofBits_def, Ideal.ofBits_zero_f32, zero_add]
  refine Finset.sum_congr rfl fun k _ => ?_
  have e1 : idx_main_v28 (ix1 e) k = ix2 e k := funext fun a => Fin.ext (by match a with | ⟨0, _⟩ => rfl | ⟨1, _⟩ => rfl)
  rw [e1, val_main_v27_apply, Ideal.mulf_def, v26_at]

/-- The reciprocal root of the variance plus the epsilon literal. -/
theorem v36_at (e : Fin 1000000) :
    val_main_v36 (F := Ideal) x0 x1 x2 x3 x4 (ix2 e (0 : Fin 1))
      = Ideal.rsqrt (mean64 (fun j' => dev (hid x0 x1 x2 x3 x4 e) j' * dev (hid x0 x1 x2 x3 x4 e) j')
          + Ideal.ofBits .f32 0x3727C5AC#32) := by
  have e1 : idx_main_v29 (ix2 e (0 : Fin 1)) = ix1 e := funext fun a => Fin.ext (by match a with | ⟨0, _⟩ => rfl)
  rw [val_main_v36_apply, val_main_v35_apply, val_main_v31_apply, val_main_v29_apply, val_main_v30_apply,
    val_main_v34_apply, val_main_cst_5_apply, val_main_cst_6_apply, Ideal.hostUnary_rsqrt_def, Ideal.addf_def,
    Ideal.hostDivf_def, Ideal.ofBits_def, Ideal.ofBits_def, e1, v28_at]
  rfl

/-- The normalised row. -/
theorem v44_at (e : Fin 1000000) (j : Fin 64) :
    val_main_v44 (F := Ideal) x0 x1 x2 x3 x4 x5 x6 (ix2 e j) = lnorm (hid x0 x1 x2 x3 x4 e) (vec x5) (vec x6) j := by
  have e1 : idx_main_v37 (ix2 e j) = ix2 e (0 : Fin 1) := funext fun a => Fin.ext (by match a with | ⟨0, _⟩ => rfl | ⟨1, _⟩ => rfl)
  have e2 : idx_main_v39 (idx_main_v40 (ix2 e j)) = ix1 j := funext fun a => Fin.ext (by match a with | ⟨0, _⟩ => rfl)
  have e3 : idx_main_v42 (idx_main_v43 (ix2 e j)) = ix1 j := funext fun a => Fin.ext (by match a with | ⟨0, _⟩ => rfl)
  rw [val_main_v44_apply, val_main_v41_apply, val_main_v38_apply, val_main_v37_apply, val_main_v40_apply,
    val_main_v39_apply, val_main_v43_apply, val_main_v42_apply, Ideal.addf_def, Ideal.mulf_def, Ideal.mulf_def,
    e1, e2, e3, v33_at, v36_at]
  rfl

/-- The second layer. -/
theorem v48_at (e : Fin 1000000) (c : Fin 64) :
    val_main_v48 (F := Ideal) x0 x1 x2 x3 x4 x5 x6 x7 x8 (ix2 e c)
      = mlpRow (rowA x0 x1 e) (rowB x2 e) (mat1 x3) (vec x4) (vec x5) (vec x6) (fun k j => x7 (ix2 k j)) (vec x8) c := by
  have e3 : idx_main_v46 (idx_main_v47 (ix2 e c)) = ix1 c := funext fun a => Fin.ext (by match a with | ⟨0, _⟩ => rfl)
  rw [val_main_v48_apply, val_main_v45_apply, val_main_v47_apply, val_main_v46_apply, Ideal.addf_def, e3]
  refine congrArg (· + vec x8 c) (Finset.sum_congr rfl fun k _ => ?_)
  have e1 : lidx_main_v45 (ix2 e c) k = ix2 e k := funext fun a => Fin.ext (by match a with | ⟨0, _⟩ => rfl | ⟨1, _⟩ => rfl)
  have e2 : ridx_main_v45 (ix2 e c) k = ix2 k c := funext fun a => Fin.ext (by match a with | ⟨0, _⟩ => rfl | ⟨1, _⟩ => rfl)
  rw [e1, e2, v44_at]
  rfl

end Stages

theorem edge_eq (x0 : (⟨S100000x128, .f32⟩ : BufTy).Contents (Elt Ideal)) (x1 : (⟨S2x1000000, .i32⟩ : BufTy).Contents (Elt Ideal))
    (x2 : (⟨S1000000x64, .f32⟩ : BufTy).Contents (Elt Ideal)) (x3 : (⟨S192x64, .f32⟩ : BufTy).Contents (Elt Ideal))
    (x4 x5 x6 : (⟨S64, .f32⟩ : BufTy).Contents (Elt Ideal)) (x7 : (⟨S64x64, .f32⟩ : BufTy).Contents (Elt Ideal))
    (x8 : (⟨S64, .f32⟩ : BufTy).Contents (Elt Ideal)) :
    val_main_v48 (F := Ideal) x0 x1 x2 x3 x4 x5 x6 x7 x8
      = mlpArr (n := 1000000) (val_main_v10 (F := Ideal) x0 x1) x2 x3 x4 x5 x6 x7 x8 := by
  funext i
  obtain ⟨e, c, rfl⟩ : ∃ (e : Fin 1000000) (c : Fin 64), i = ix2 e c := ⟨i 0, i 1, eq_ix2 i⟩
  rw [v48_at]
  rfl

end Cert.ReferenceIdeal.RefEdge

end
-- ==== Proof.RefNode.lean ====
/-
  The reference's node stage: its result is the perceptron of each node's features joined with the node's aggregate.
-/
import proofs.«414315_j2370821947608_1_alg».proof.Proof.RefReadP
import proofs.«414315_j2370821947608_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefNode

open Cert.ReferenceIdeal Cert.ReferenceIdeal.Gen Cert.ReferenceIdeal.ReadP Idealize.ShloMosaic Idealize.ShloMosaic.ValueIdx Cert.Spec

/-- The joined row: entry `k` of row `e` of the concatenation is the node feature below 128, the aggregate from 128 on. -/
theorem v61_at (x0 : (⟨S100000x128, .f32⟩ : BufTy).Contents (Elt Ideal)) (x1 : (⟨S2x1000000, .i32⟩ : BufTy).Contents (Elt Ideal)) (x2 : (⟨S1000000x64, .f32⟩ : BufTy).Contents (Elt Ideal)) (x3 : (⟨S192x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (e : Fin 100000) (k : Fin 192) :
    val_main_v61 (F := Ideal) x0 x1 x2 x3 x4 x5 x6 x7 x8 (ix2 e k) = cat (fun k => x0 (ix2 e k)) (fun k => (val_main_v60 (F := Ideal) x0 x1 x2 x3 x4 x5 x6 x7 x8) (ix2 e k)) k := by
  unfold val_main_v61
  generalize val_main_v60 (F := Ideal) x0 x1 x2 x3 x4 x5 x6 x7 x8 = B
  unfold cat
  split
  · rename_i h
    exact concatenate_pair_apply_left 1 x0 B _ (ix2 e k) rfl (ix2 e ⟨k.val, h⟩)
      (fun b => by match b with | ⟨0, _⟩ => rfl | ⟨1, _⟩ => rfl)
  · rename_i h
    exact concatenate_pair_apply_right 1 x0 B _ (ix2 e k) rfl rfl (ix2 e ⟨k.val - 128, by have := k.isLt; omega⟩)
      (fun b hb => by match b with | ⟨0, _⟩ => rfl | ⟨1, _⟩ => exact absurd rfl hb)
      (by show (k.val - 128) + 128 = k.val; omega)

/-- The first layer before the activation, entry `j` of row `e`. -/
theorem v65_at (x0 : (⟨S100000x128, .f32⟩ : BufTy).Contents (Elt Ideal)) (x1 : (⟨S2x1000000, .i32⟩ : BufTy).Contents (Elt Ideal)) (x2 : (⟨S1000000x64, .f32⟩ : BufTy).Contents (Elt Ideal)) (x3 : (⟨S192x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S192x64, .f32⟩ : BufTy).Contents (Elt Ideal)) (x10 : (⟨S64, .f32⟩ : BufTy).Contents (Elt Ideal)) (e : Fin 100000) (j : Fin 64) :
    val_main_v65 (F := Ideal) x0 x1 x2 x3 x4 x5 x6 x7 x8 x9 x10 (ix2 e j)
      = (∑ k : Fin 192, cat (fun k => x0 (ix2 e k)) (fun k => (val_main_v60 (F := Ideal) x0 x1 x2 x3 x4 x5 x6 x7 x8) (ix2 e k)) k * x9 (ix2 k j)) + x10 (ix1 j) := by
  rw [val_main_v65_apply, val_main_v62_apply, val_main_v64_apply, val_main_v63_apply]
  have hb : idx_main_v63 (idx_main_v64 (ix2 e j)) = ix1 j := funext fun a => Fin.ext (by match a with | ⟨0, _⟩ => rfl)
  have hs : ∀ k : Fin 192, val_main_v61 (F := Ideal) x0 x1 x2 x3 x4 x5 x6 x7 x8 (lidx_main_v62 (ix2 e j) k) * x9 (ridx_main_v62 (ix2 e j) k)
      = cat (fun k => x0 (ix2 e k)) (fun k => (val_main_v60 (F := Ideal) x0 x1 x2 x3 x4 x5 x6 x7 x8) (ix2 e k)) k * x9 (ix2 k j) := fun k => by
    have h1 : lidx_main_v62 (ix2 e j) k = ix2 e k := funext fun a => Fin.ext (by match a with | ⟨0, _⟩ => rfl | ⟨1, _⟩ => rfl)
    have h2 : ridx_main_v62 (ix2 e j) k = ix2 k j := funext fun a => Fin.ext (by match a with | ⟨0, _⟩ => rfl | ⟨1, _⟩ => rfl)
    rw [h1, h2, v61_at]
  rw [hb, Finset.sum_congr rfl fun k _ => hs k]
  rfl

/-- The first layer's activated output. -/
theorem v70_at (x0 : (⟨S100000x128, .f32⟩ : BufTy).Contents (Elt Ideal)) (x1 : (⟨S2x1000000, .i32⟩ : BufTy).Contents (Elt Ideal)) (x2 : (⟨S1000000x64, .f32⟩ : BufTy).Contents (Elt Ideal)) (x3 : (⟨S192x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S192x64, .f32⟩ : BufTy).Contents (Elt Ideal)) (x10 : (⟨S64, .f32⟩ : BufTy).Contents (Elt Ideal)) (e : Fin 100000) (j : Fin 64) :
    val_main_v70 (F := Ideal) x0 x1 x2 x3 x4 x5 x6 x7 x8 x9 x10 (ix2 e j) = (hidden (fun k => x0 (ix2 e k)) (fun k => (val_main_v60 (F := Ideal) x0 x1 x2 x3 x4 x5 x6 x7 x8) (ix2 e k)) (fun k j => x9 (ix2 k j)) (fun j => x10 (ix1 j))) j := by
  rw [val_main_v70_apply, val_main_v67_apply, val_main_v69_apply, val_main_v66_apply, val_main_v68_apply,
    val_main_cst_11_apply, val_main_cst_12_apply, v65_at]
  rfl

/-- The row's mean. -/
theorem v74_at (x0 : (⟨S100000x128, .f32⟩ : BufTy).Contents (Elt Ideal)) (x1 : (⟨S2x1000000, .i32⟩ : BufTy).Contents (Elt Ideal)) (x2 : (⟨S1000000x64, .f32⟩ : BufTy).Contents (Elt Ideal)) (x3 : (⟨S192x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S192x64, .f32⟩ : BufTy).Contents (Elt Ideal)) (x10 : (⟨S64, .f32⟩ : BufTy).Contents (Elt Ideal)) (e : Fin 100000) :
    val_main_v74 (F := Ideal) x0 x1 x2 x3 x4 x5 x6 x7 x8 x9 x10 (ix2 e (0 : Fin 1)) = mean64 (hidden (fun k => x0 (ix2 e k)) (fun k => (val_main_v60 (F := Ideal) x0 x1 x2 x3 x4 x5 x6 x7 x8) (ix2 e k)) (fun k j => x9 (ix2 k j)) (fun j => x10 (ix1 j))) := by
  rw [val_main_v74_apply, val_main_v72_apply, val_main_v73_apply, val_main_cst_14_apply, val_main_v71_apply,
    val_main_cst_13_apply]
  have hs : ∀ k : Fin 64, val_main_v70 (F := Ideal) x0 x1 x2 x3 x4 x5 x6 x7 x8 x9 x10 (idx_main_v71 (idx_main_v72 (ix2 e (0 : Fin 1))) k)
      = (hidden (fun k => x0 (ix2 e k)) (fun k => (val_main_v60 (F := Ideal) x0 x1 x2 x3 x4 x5 x6 x7 x8) (ix2 e k)) (fun k j => x9 (ix2 k j)) (fun j => x10 (ix1 j))) k := fun k => by
    have h1 : idx_main_v71 (idx_main_v72 (ix2 e (0 : Fin 1))) k = ix2 e k := funext fun a => Fin.ext (by match a with | ⟨0, _⟩ => rfl | ⟨1, _⟩ => rfl)
    rw [h1, v70_at]
  rw [Finset.sum_congr rfl fun k _ => hs k]
  simp only [Ideal.hostDivf_def, Ideal.ofBits_def, Ideal.ofBits_zero_f32, zero_add]
  rfl

/-- The deviation from the mean (the operand of the square). -/
theorem v76_at (x0 : (⟨S100000x128, .f32⟩ : BufTy).Contents (Elt Ideal)) (x1 : (⟨S2x1000000, .i32⟩ : BufTy).Contents (Elt Ideal)) (x2 : (⟨S1000000x64, .f32⟩ : BufTy).Contents (Elt Ideal)) (x3 : (⟨S192x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S192x64, .f32⟩ : BufTy).Contents (Elt Ideal)) (x10 : (⟨S64, .f32⟩ : BufTy).Contents (Elt Ideal)) (e : Fin 100000) (j : Fin 64) :
    val_main_v76 (F := Ideal) x0 x1 x2 x3 x4 x5 x6 x7 x8 x9 x10 (ix2 e j) = dev (hidden (fun k => x0 (ix2 e k)) (fun k => (val_main_v60 (F := Ideal) x0 x1 x2 x3 x4 x5 x6 x7 x8) (ix2 e k)) (fun k j => x9 (ix2 k j)) (fun j => x10 (ix1 j))) j := by
  rw [val_main_v76_apply, val_main_v75_apply, v70_at]
  have h1 : idx_main_v75 (ix2 e j) = ix2 e (0 : Fin 1) := funext fun a => Fin.ext (by match a with | ⟨0, _⟩ => rfl | ⟨1, _⟩ => rfl)
  rw [h1, v74_at]
  rfl

/-- The deviation from the mean (the operand of the scaling). -/
theorem v83_at (x0 : (⟨S100000x128, .f32⟩ : BufTy).Contents (Elt Ideal)) (x1 : (⟨S2x1000000, .i32⟩ : BufTy).Contents (Elt Ideal)) (x2 : (⟨S1000000x64, .f32⟩ : BufTy).Contents (Elt Ideal)) (x3 : (⟨S192x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S192x64, .f32⟩ : BufTy).Contents (Elt Ideal)) (x10 : (⟨S64, .f32⟩ : BufTy).Contents (Elt Ideal)) (e : Fin 100000) (j : Fin 64) :
    val_main_v83 (F := Ideal) x0 x1 x2 x3 x4 x5 x6 x7 x8 x9 x10 (ix2 e j) = dev (hidden (fun k => x0 (ix2 e k)) (fun k => (val_main_v60 (F := Ideal) x0 x1 x2 x3 x4 x5 x6 x7 x8) (ix2 e k)) (fun k j => x9 (ix2 k j)) (fun j => x10 (ix1 j))) j := by
  rw [val_main_v83_apply, val_main_v82_apply, v70_at]
  have h1 : idx_main_v82 (ix2 e j) = ix2 e (0 : Fin 1) := funext fun a => Fin.ext (by match a with | ⟨0, _⟩ => rfl | ⟨1, _⟩ => rfl)
  rw [h1, v74_at]
  rfl

/-- The row's variance. -/
theorem v81_at (x0 : (⟨S100000x128, .f32⟩ : BufTy).Contents (Elt Ideal)) (x1 : (⟨S2x1000000, .i32⟩ : BufTy).Contents (Elt Ideal)) (x2 : (⟨S1000000x64, .f32⟩ : BufTy).Contents (Elt Ideal)) (x3 : (⟨S192x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S192x64, .f32⟩ : BufTy).Contents (Elt Ideal)) (x10 : (⟨S64, .f32⟩ : BufTy).Contents (Elt Ideal)) (e : Fin 100000) :
    val_main_v81 (F := Ideal) x0 x1 x2 x3 x4 x5 x6 x7 x8 x9 x10 (ix2 e (0 : Fin 1)) = mean64 (fun j' => dev (hidden (fun k => x0 (ix2 e k)) (fun k => (val_main_v60 (F := Ideal) x0 x1 x2 x3 x4 x5 x6 x7 x8) (ix2 e k)) (fun k j => x9 (ix2 k j)) (fun j => x10 (ix1 j))) j' * dev (hidden (fun k => x0 (ix2 e k)) (fun k => (val_main_v60 (F := Ideal) x0 x1 x2 x3 x4 x5 x6 x7 x8) (ix2 e k)) (fun k j => x9 (ix2 k j)) (fun j => x10 (ix1 j))) j') := by
  rw [val_main_v81_apply, val_main_v79_apply, val_main_v80_apply, val_main_cst_16_apply, val_main_v78_apply,
    val_main_cst_15_apply]
  have hs : ∀ k : Fin 64, val_main_v77 (F := Ideal) x0 x1 x2 x3 x4 x5 x6 x7 x8 x9 x10 (idx_main_v78 (idx_main_v79 (ix2 e (0 : Fin 1))) k)
      = dev (hidden (fun k => x0 (ix2 e k)) (fun k => (val_main_v60 (F := Ideal) x0 x1 x2 x3 x4 x5 x6 x7 x8) (ix2 e k)) (fun k j => x9 (ix2 k j)) (fun j => x10 (ix1 j))) k * dev (hidden (fun k => x0 (ix2 e k)) (fun k => (val_main_v60 (F := Ideal) x0 x1 x2 x3 x4 x5 x6 x7 x8) (ix2 e k)) (fun k j => x9 (ix2 k j)) (fun j => x10 (ix1 j))) k := fun k => by
    have h1 : idx_main_v78 (idx_main_v79 (ix2 e (0 : Fin 1))) k = ix2 e k := funext fun a => Fin.ext (by match a with | ⟨0, _⟩ => rfl | ⟨1, _⟩ => rfl)
    rw [h1, val_main_v77_apply, v76_at]
    rfl
  rw [Finset.sum_congr rfl fun k _ => hs k]
  simp only [Ideal.hostDivf_def, Ideal.ofBits_def, Ideal.ofBits_zero_f32, zero_add]
  rfl

/-- The normalised row. -/
theorem v94_at (x0 : (⟨S100000x128, .f32⟩ : BufTy).Contents (Elt Ideal)) (x1 : (⟨S2x1000000, .i32⟩ : BufTy).Contents (Elt Ideal)) (x2 : (⟨S1000000x64, .f32⟩ : BufTy).Contents (Elt Ideal)) (x3 : (⟨S192x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S192x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (e : Fin 100000) (j : Fin 64) :
    val_main_v94 (F := Ideal) x0 x1 x2 x3 x4 x5 x6 x7 x8 x9 x10 x11 x12 (ix2 e j) = lnorm (hidden (fun k => x0 (ix2 e k)) (fun k => (val_main_v60 (F := Ideal) x0 x1 x2 x3 x4 x5 x6 x7 x8) (ix2 e k)) (fun k j => x9 (ix2 k j)) (fun j => x10 (ix1 j))) (fun j => x11 (ix1 j)) (fun j => x12 (ix1 j)) j := by
  rw [val_main_v94_apply, val_main_v91_apply, val_main_v88_apply, val_main_v87_apply, val_main_v86_apply,
    val_main_v85_apply, val_main_v84_apply, val_main_cst_17_apply, val_main_v90_apply, val_main_v89_apply,
    val_main_v93_apply, val_main_v92_apply, v83_at]
  have h1 : idx_main_v87 (ix2 e j) = ix2 e (0 : Fin 1) := funext fun a => Fin.ext (by match a with | ⟨0, _⟩ => rfl | ⟨1, _⟩ => rfl)
  have h2 : idx_main_v89 (idx_main_v90 (ix2 e j)) = ix1 j := funext fun a => Fin.ext (by match a with | ⟨0, _⟩ => rfl)
  have h3 : idx_main_v92 (idx_main_v93 (ix2 e j)) = ix1 j := funext fun a => Fin.ext (by match a with | ⟨0, _⟩ => rfl)
  rw [h1, h2, h3, v81_at]
  rfl

/-- The second layer. -/
theorem v98_at (x0 : (⟨S100000x128, .f32⟩ : BufTy).Contents (Elt Ideal)) (x1 : (⟨S2x1000000, .i32⟩ : BufTy).Contents (Elt Ideal)) (x2 : (⟨S1000000x64, .f32⟩ : BufTy).Contents (Elt Ideal)) (x3 : (⟨S192x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S192x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (e : Fin 100000) (c : Fin 64) :
    val_main_v98 (F := Ideal) x0 x1 x2 x3 x4 x5 x6 x7 x8 x9 x10 x11 x12 x13 x14 (ix2 e c)
      = mlpRow (fun k => x0 (ix2 e k)) (fun k => (val_main_v60 (F := Ideal) x0 x1 x2 x3 x4 x5 x6 x7 x8) (ix2 e k)) (fun k j => x9 (ix2 k j)) (fun j => x10 (ix1 j)) (fun j => x11 (ix1 j)) (fun j => x12 (ix1 j))
          (fun k j => x13 (ix2 k j)) (fun j => x14 (ix1 j)) c := by
  rw [val_main_v98_apply, val_main_v95_apply, val_main_v97_apply, val_main_v96_apply]
  have hb : idx_main_v96 (idx_main_v97 (ix2 e c)) = ix1 c := funext fun a => Fin.ext (by match a with | ⟨0, _⟩ => rfl)
  have hs : ∀ k : Fin 64, val_main_v94 (F := Ideal) x0 x1 x2 x3 x4 x5 x6 x7 x8 x9 x10 x11 x12 (lidx_main_v95 (ix2 e c) k) * x13 (ridx_main_v95 (ix2 e c) k)
      = lnorm (hidden (fun k => x0 (ix2 e k)) (fun k => (val_main_v60 (F := Ideal) x0 x1 x2 x3 x4 x5 x6 x7 x8) (ix2 e k)) (fun k j => x9 (ix2 k j)) (fun j => x10 (ix1 j))) (fun j => x11 (ix1 j)) (fun j => x12 (ix1 j)) k * x13 (ix2 k c) := fun k => by
    have h1 : lidx_main_v95 (ix2 e c) k = ix2 e k := funext fun a => Fin.ext (by match a with | ⟨0, _⟩ => rfl | ⟨1, _⟩ => rfl)
    have h2 : ridx_main_v95 (ix2 e c) k = ix2 k c := funext fun a => Fin.ext (by match a with | ⟨0, _⟩ => rfl | ⟨1, _⟩ => rfl)
    rw [h1, h2, v94_at]
  rw [hb, Finset.sum_congr rfl fun k _ => hs k]
  rfl

theorem node_eq (x0 : (⟨S100000x128, .f32⟩ : BufTy).Contents (Elt Ideal)) (x1 : (⟨S2x1000000, .i32⟩ : BufTy).Contents (Elt Ideal))
    (x2 : (⟨S1000000x64, .f32⟩ : BufTy).Contents (Elt Ideal)) (x3 : (⟨S192x64, .f32⟩ : BufTy).Contents (Elt Ideal))
    (x4 x5 x6 : (⟨S64, .f32⟩ : BufTy).Contents (Elt Ideal)) (x7 : (⟨S64x64, .f32⟩ : BufTy).Contents (Elt Ideal))
    (x8 : (⟨S64, .f32⟩ : BufTy).Contents (Elt Ideal)) (x9 : (⟨S192x64, .f32⟩ : BufTy).Contents (Elt Ideal))
    (x10 x11 x12 : (⟨S64, .f32⟩ : BufTy).Contents (Elt Ideal)) (x13 : (⟨S64x64, .f32⟩ : BufTy).Contents (Elt Ideal))
    (x14 : (⟨S64, .f32⟩ : BufTy).Contents (Elt Ideal)) :
    val_main_v98 (F := Ideal) x0 x1 x2 x3 x4 x5 x6 x7 x8 x9 x10 x11 x12 x13 x14
      = mlpArr (n := 100000) x0 (val_main_v60 (F := Ideal) x0 x1 x2 x3 x4 x5 x6 x7 x8) x9 x10 x11 x12 x13 x14 := by
  funext i
  obtain ⟨e, c, rfl⟩ : ∃ (e : Fin 100000) (c : Fin 64), i = ix2 e c := ⟨i 0, i 1, eq_ix2 i⟩
  exact v98_at x0 x1 x2 x3 x4 x5 x6 x7 x8 x9 x10 x11 x12 x13 x14 e c

end Cert.ReferenceIdeal.RefNode

end
-- ==== Proof.RefBridge.lean ====
/-
  The reference program's result in the same terms as the kernel program's: its gather is the kernel program's gather
  (the same operations on the same indices), its aggregation the same host operations, and its two dense stages the
  perceptron of each row.
-/
import proofs.«414315_j2370821947608_1_alg».proof.Proof.RefEdge
import proofs.«414315_j2370821947608_1_alg».proof.Proof.RefNode
import proofs.«414315_j2370821947608_1_alg».proof.Proof.Gen.KernelIdeal
import proofs.«414315_j2370821947608_1_alg».proof.Proof.HostDefs
import proofs.«414315_j2370821947608_1_alg».proof.Proof.Spec

set_option maxRecDepth 16384

noncomputable section

namespace Cert.ReferenceIdeal.RefBridge

open Cert.ReferenceIdeal Cert.ReferenceIdeal.Gen Cert.ReferenceIdeal.ReadP Idealize.ShloMosaic Cert.Spec
open Cert.KernelIdeal.HostDefs (srcOf dstOf startIdx gatherRows aggOf)

/-- The reference's gathered rows are the kernel program's: the same wrap of a negative index, the same gather. -/
theorem gather_eq (x0 : (⟨S100000x128, .f32⟩ : BufTy).Contents (Elt Ideal)) (x1 : (⟨S2x1000000, .i32⟩ : BufTy).Contents (Elt Ideal)) :
    val_main_v10 (F := Ideal) x0 x1 = gatherRows (F := Ideal) x0 x1 := by
  unfold val_main_v10 val_main_v9 val_main_v8 val_main_v7 val_main_v6 val_main_v5 val_main_v4 val_main_c val_main_c_0 val_main_v1
    val_main_v0 gatherRows startIdx srcOf
  rfl

/-- The reference's aggregate is the kernel program's host aggregation of the reference's own edge outputs. -/
theorem agg_eq (x0 : (⟨S100000x128, .f32⟩ : BufTy).Contents (Elt Ideal)) (x1 : (⟨S2x1000000, .i32⟩ : BufTy).Contents (Elt Ideal))
    (x2 : (⟨S1000000x64, .f32⟩ : BufTy).Contents (Elt Ideal)) (x3 : (⟨S192x64, .f32⟩ : BufTy).Contents (Elt Ideal))
    (x4 x5 x6 : (⟨S64, .f32⟩ : BufTy).Contents (Elt Ideal)) (x7 : (⟨S64x64, .f32⟩ : BufTy).Contents (Elt Ideal))
    (x8 : (⟨S64, .f32⟩ : BufTy).Contents (Elt Ideal)) :
    val_main_v60 (F := Ideal) x0 x1 x2 x3 x4 x5 x6 x7 x8 = aggOf (F := Ideal) (val_main_v48 (F := Ideal) x0 x1 x2 x3 x4 x5 x6 x7 x8) (dstOf x1) := by
  unfold val_main_v60 val_main_v59 val_main_v58 val_main_v57 val_main_v56 val_main_cst_10 val_main_v55 val_main_v54 val_main_v53
    val_main_cst_9 val_main_v52 val_main_cst_8 val_main_v51 val_main_v50 val_main_v49 val_main_cst_7 val_main_v3 val_main_v2 aggOf dstOf
  rfl

/-- The reference's result array. -/
theorem ref_result (x0 : (⟨S100000x128, .f32⟩ : BufTy).Contents (Elt Ideal)) (x1 : (⟨S2x1000000, .i32⟩ : BufTy).Contents (Elt Ideal))
    (x2 : (⟨S1000000x64, .f32⟩ : BufTy).Contents (Elt Ideal)) (x3 : (⟨S192x64, .f32⟩ : BufTy).Contents (Elt Ideal))
    (x4 x5 x6 : (⟨S64, .f32⟩ : BufTy).Contents (Elt Ideal)) (x7 : (⟨S64x64, .f32⟩ : BufTy).Contents (Elt Ideal))
    (x8 : (⟨S64, .f32⟩ : BufTy).Contents (Elt Ideal)) (x9 : (⟨S192x64, .f32⟩ : BufTy).Contents (Elt Ideal))
    (x10 x11 x12 : (⟨S64, .f32⟩ : BufTy).Contents (Elt Ideal)) (x13 : (⟨S64x64, .f32⟩ : BufTy).Contents (Elt Ideal))
    (x14 : (⟨S64, .f32⟩ : BufTy).Contents (Elt Ideal)) :
    val_main_v98 (F := Ideal) x0 x1 x2 x3 x4 x5 x6 x7 x8 x9 x10 x11 x12 x13 x14
      = mlpArr (n := 100000) x0
          (aggOf (F := Ideal) (mlpArr (n := 1000000) (gatherRows (F := Ideal) x0 x1) x2 x3 x4 x5 x6 x7 x8) (dstOf x1))
          x9 x10 x11 x12 x13 x14 := by
  rw [RefNode.node_eq, agg_eq, RefEdge.edge_eq, gather_eq]

end Cert.ReferenceIdeal.RefBridge

end
-- ==== Proof.lean ====
/-
  The certificate of an edge-conditioned message-passing layer: gather the source node's features along each edge,
  apply a two-layer perceptron (leaky rectifier, layer normalisation) to them joined with the edge's attributes,
  average the results over each destination node, and apply a second such perceptron to each node's features joined
  with its average. The kernel program runs the two perceptrons as kernels over blocks of 4000 rows and does the gather
  and the averaging on the host; the reference does everything on the host.

  Over the extended reals the two programs compute the same function: the kernels' roundings to bf16 in front of their
  matrix products are the identity, a product into a zero accumulator and a lane sum are the host's product and sum,
  and every other operation is the same operation on the same operands, block by block. The one difference of the two
  texts is the gather: the kernel program's fills a row whose source index is out of range with a not-a-number pattern
  where the reference's clamps the index. The precondition keeps every source index in [0, 100000), where the two
  agree; the destination indices need nothing, both programs scatter with them in the same way.

  The frames of the two kernel programs are their generated runs; the reference's frame is its run with the result
  dropped; the idealization rewrote nothing, so there is nothing to preserve.
-/
import proofs.«414315_j2370821947608_1_alg».proof.Defs
import proofs.«414315_j2370821947608_1_alg».proof.Proof.Gen.Kernel
import proofs.«414315_j2370821947608_1_alg».proof.Proof.Gen.Kernel.Frame
import proofs.«414315_j2370821947608_1_alg».proof.Proof.Gen.KernelIdeal
import proofs.«414315_j2370821947608_1_alg».proof.Proof.Gen.KernelIdeal.Frame
import proofs.«414315_j2370821947608_1_alg».proof.Proof.Gen.ReferenceIdeal
import proofs.«414315_j2370821947608_1_alg».proof.Proof.Gen.Pre_finite_inputs
import proofs.«414315_j2370821947608_1_alg».proof.Proof.KernelRun
import proofs.«414315_j2370821947608_1_alg».proof.Proof.Bridge
import proofs.«414315_j2370821947608_1_alg».proof.Proof.RefRun
import proofs.«414315_j2370821947608_1_alg».proof.Proof.RefBridge

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories that agree on the arguments both programs end with one result array: the perceptron of each node's
    features joined with the average, over the node's incoming edges, of the perceptron of the edge's gathered source
    features joined with its attributes. -/
theorem algebraic : Cert.algebraic_KernelIdeal_ReferenceIdeal := by
  intro m ρ m' ρ' hpre hagree
  refine ⟨fun c => Cert.KernelIdeal.Gen.W6 m ρ c (Proc.devRef .tc Cert.KernelIdeal.main_v26),
    Cert.KernelIdeal.GenRun.run_result m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9, e10, e11, e12, e13, e14⟩ := hagree c
  rw [e0, e1, e2, e3, e4, e5, e6, e7, e8, e9, e10, e11, e12, e13, e14, Cert.ReferenceIdeal.RefBridge.ref_result]
  exact (Cert.KernelIdeal.Bridge.result_array m ρ hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
